-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x600000 : Shape := ⟨2, ![2, 600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128x64 .f32) (main_arg14 : FVec F S64 .f32) (main_arg15 : FVec F S64x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x5 .f32) (main_arg1 : IVec S2x600000 32) (main_arg2 : IVec S50000 32) (main_arg3 : FVec F S5x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x128 .f32 := Host.absf main_arg3
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x5 : Shape := ⟨2, ![50000, 5]⟩
abbrev S2x600000 : Shape := ⟨2, ![2, 600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S1x128 : Shape := ⟨2, ![1, 128]⟩
abbrev S50000x128 : Shape := ⟨2, ![50000, 128]⟩
abbrev S5000x5 : Shape := ⟨2, ![5000, 5]⟩
abbrev S5000x128 : Shape := ⟨2, ![5000, 128]⟩
abbrev S600000x128 : Shape := ⟨2, ![600000, 128]⟩
abbrev S5000 : Shape := ⟨1, ![5000]⟩
abbrev S5000x1 : Shape := ⟨2, ![5000, 1]⟩
abbrev S256x128 : Shape := ⟨2, ![256, 128]⟩
abbrev S256 : Shape := ⟨1, ![256]⟩
abbrev S256x1 : Shape := ⟨2, ![256, 1]⟩
abbrev S1x64 : Shape := ⟨2, ![1, 64]⟩
abbrev S1x1 : Shape := ⟨2, ![1, 1]⟩
abbrev S256x64 : Shape := ⟨2, ![256, 64]⟩

abbrev nBuf : Space → Nat
  | .hbm => 90
  | .vmem => 32
  | .smem => 0
  | _ => 0

abbrev bufTy : (tb : Table) → Fin (tcTables nBuf tb) → BufTy
  | .hbm, ⟨0, _⟩ => ⟨S50000x5, .f32⟩
  | .hbm, ⟨1, _⟩ => ⟨S2x600000, .i32⟩
  | .hbm, ⟨2, _⟩ => ⟨S50000, .i32⟩
  | .hbm, ⟨3, _⟩ => ⟨S5x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .f32⟩
  | .hbm, ⟨71, _⟩ => ⟨S256x128, .f32⟩
  | .hbm, ⟨72, _⟩ => ⟨S50000x1, .i32⟩
  | .hbm, ⟨73, _⟩ => ⟨S256x128, .f32⟩
  | .hbm, ⟨74, _⟩ => ⟨S_, .f32⟩
  | .hbm, ⟨75, _⟩ => ⟨S50000, .f32⟩
  | .hbm, ⟨76, _⟩ => ⟨S_, .f32⟩
  | .hbm, ⟨77, _⟩ => ⟨S256, .f32⟩
  | .hbm, ⟨78, _⟩ => ⟨S50000x1, .i32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256x1, .f32⟩
  | .hbm, ⟨84, _⟩ => ⟨S256x128, .f32⟩
  | .hbm, ⟨85, _⟩ => ⟨S256x128, .f32⟩
  | .hbm, ⟨86, _⟩ => ⟨S1x128, .f32⟩
  | .hbm, ⟨87, _⟩ => ⟨S1x64, .f32⟩
  | .hbm, ⟨88, _⟩ => ⟨S1x1, .f32⟩
  | .hbm, ⟨89, _⟩ => ⟨S256x1, .f32⟩
  | .local _ .vmem, ⟨0, _⟩ => ⟨S5000x5, .f32⟩
  | .local _ .vmem, ⟨1, _⟩ => ⟨S5000x5, .f32⟩
  | .local _ .vmem, ⟨2, _⟩ => ⟨S5x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S256x128, .f32⟩
  | .local _ .vmem, ⟨25, _⟩ => ⟨S128x128, .f32⟩
  | .local _ .vmem, ⟨26, _⟩ => ⟨S1x128, .f32⟩
  | .local _ .vmem, ⟨27, _⟩ => ⟨S128x64, .f32⟩
  | .local _ .vmem, ⟨28, _⟩ => ⟨S1x64, .f32⟩
  | .local _ .vmem, ⟨29, _⟩ => ⟨S64x1, .f32⟩
  | .local _ .vmem, ⟨30, _⟩ => ⟨S1x1, .f32⟩
  | .local _ .vmem, ⟨31, _⟩ => ⟨S256x1, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  shapeCasts_S128_S1x128 : S128.ShapeCasts S1x128
  inb_S5000x5_S5000x5_0_0 : ∀ a, (![0, 0] : Fin 2 → Nat) a + S5000x5.size a ≤ S5000x5.size a
  h_S5000x5 : 0 < S5000x5.numel
  inb_S5x128_S5x128_0_0 : ∀ a, (![0, 0] : Fin 2 → Nat) a + S5x128.size a ≤ S5x128.size a
  h_S5x128 : 0 < S5x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S64_S1x64 : S64.ShapeCasts S1x64
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S256x128 : S1x128.Broadcasts S256x128
  broadcasts_S1x64_S256x64 : S1x64.Broadcasts S256x64
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S50000_S600000x1_S600000_n_0_0_1_wf : ScatterDims.WF S50000 S600000x1 S600000 [] [0] [0] 1
  dot_S5000x5_S5x128_S5000x128_1_0_0_1_n_n_wf : DotDims.WF S5000x5 S5x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x1.size a ≤ S256x1.size a
  hwx3_7 : ∀ i : grid3.Coords, EltTy.bits .f32 = 32 ∨ (Rect.block (s := S256x1) S256x1.size (cc3_transform_7 i) (hinb3_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S256x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x5 : Shape := ⟨2, ![50000, 5]⟩
abbrev S2x600000 : Shape := ⟨2, ![2, 600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S50000x128 : Shape := ⟨2, ![50000, 128]⟩
abbrev S1x128 : Shape := ⟨2, ![1, 128]⟩
abbrev S600000x128 : Shape := ⟨2, ![600000, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S50000x5, .f32⟩
  | 1 => ⟨S2x600000, .i32⟩
  | 2 => ⟨S50000, .i32⟩
  | 3 => ⟨S5x128, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x64, .f32⟩
  | 14 => ⟨S64, .f32⟩
  | 15 => ⟨S64x1, .f32⟩
  | 16 => ⟨S1, .f32⟩
  | 17 => ⟨S1x600000, .i32⟩
  | 18 => ⟨S600000, .i32⟩
  | 19 => ⟨S1x600000, .i32⟩
  | 20 => ⟨S600000, .i32⟩
  | 21 => ⟨S_, .f32⟩
  | 22 => ⟨S600000, .f32⟩
  | 23 => ⟨S_, .f32⟩
  | 24 => ⟨S50000, .f32⟩
  | 25 => ⟨S600000x1, .i32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S50000x1, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S50000x128, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S50000x1, .f32⟩
  | 67 => ⟨S_, .f32⟩
  | 68 => ⟨S50000x1, .f32⟩
  | 69 => ⟨S50000x1, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000x128, .f32⟩
  | 84 => ⟨S_, .f32⟩
  | 85 => ⟨S50000x128, .f32⟩
  | 86 => ⟨S600000x1, .i32⟩
  | 87 => ⟨S50000x128, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000, .f32⟩
  | 99 => ⟨S50000x1, .f32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S256x128, .f32⟩
  | 111 => ⟨S50000x1, .i32⟩
  | 112 => ⟨S256x128, .f32⟩
  | 113 => ⟨S_, .f32⟩
  | 114 => ⟨S50000, .f32⟩
  | 115 => ⟨S_, .f32⟩
  | 116 => ⟨S256, .f32⟩
  | 117 => ⟨S50000x1, .i32⟩
  | 118 => ⟨S256, .f32⟩
  | 119 => ⟨S_, .f32⟩
  | 120 => ⟨S256, .f32⟩
  | 121 => ⟨S256, .f32⟩
  | 122 => ⟨S256x1, .f32⟩
  | 123 => ⟨S256x128, .f32⟩
  | 124 => ⟨S256x128, .f32⟩
  | 125 => ⟨S256x128, .f32⟩
  | 126 => ⟨S1x128, .f32⟩
  | 127 => ⟨S256x128, .f32⟩
  | _ => ⟨S50000x5, .f32⟩

abbrev hbmTy0_1 (i : Nat) : BufTy := match i % 128 with
  | 0 => ⟨S256x128, .f32⟩
  | 1 => ⟨S_, .f32⟩
  | 2 => ⟨S256x128, .f32⟩
  | 3 => ⟨S256x128, .f32⟩
  | 4 => ⟨S256x64, .f32⟩
  | 5 => ⟨S1x64, .f32⟩
  | 6 => ⟨S256x64, .f32⟩
  | 7 => ⟨S256x64, .f32⟩
  | 8 => ⟨S_, .f32⟩
  | 9 => ⟨S256x64, .f32⟩
  | 10 => ⟨S256x64, .f32⟩
  | 11 => ⟨S256x1, .f32⟩
  | 12 => ⟨S1x1, .f32⟩
  | 13 => ⟨S256x1, .f32⟩
  | 14 => ⟨S256x1, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call0_cst : Ref sig .tc := ⟨.hbm, 38, rfl⟩
abbrev main_call0_v0 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call1_cst : Ref sig .tc := ⟨.hbm, 72, rfl⟩
abbrev main_call1_v0 : Ref sig .tc := ⟨.hbm, 73, rfl⟩
abbrev main_v44 : Ref sig .tc := ⟨.hbm, 74, rfl⟩
abbrev main_c_7 : Ref sig .tc := ⟨.hbm, 75, rfl⟩
abbrev main_v45 : Ref sig .tc := ⟨.hbm, 76, rfl⟩
abbrev main_v46 : Ref sig .tc := ⟨.hbm, 77, rfl⟩
abbrev main_c_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call2_cst : Ref sig .tc := ⟨.hbm, 106, rfl⟩
abbrev main_call2_v0 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call3_cst : Ref sig .tc := ⟨.hbm, 129, rfl⟩
abbrev main_call3_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call4_cst : Ref sig .tc := ⟨.hbm, 136, rfl⟩
abbrev main_call4_v0 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S600000x1_S600000_n_0_0_1_wf : ScatterDims.WF S50000 S600000x1 S600000 [] [0] [0] 1
  dot_S50000x5_S5x128_S50000x128_1_0_0_1_n_n_wf : DotDims.WF S50000x5 S5x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.Keeps.lean ====
/-
  Which buffers a segment of the kernel program's run leaves alone.

  A host stretch changes only the buffers its operations write, and a region only its result array: every other buffer keeps its
  contents across it (`keepH*`, `keepR*`).
-/
import proofs.«158993_j2508260901292_1_alg».proof.Proof.Gen.KernelIdeal.Frame
import Idealize.ShloMosaic.PureOps.Ideal

set_option maxRecDepth 16384

noncomputable section

namespace Cert.KernelIdeal.Keeps

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The buffers each host stretch writes. -/
def wr0 : List (Ref sig .tc) :=
  [main_v0, main_v1, main_v2, main_v3, main_cst, main_v4, main_cst_0, main_v5, main_v6, main_v7, main_cst_1, main_v8, main_v9,
    main_cst_2, main_v10, main_v11, main_v12, main_v13]
def wr1 : List (Ref sig .tc) :=
  [main_c, main_v15, main_v16, main_c_3, main_v17, main_v18, main_v19, main_v20, main_v21, main_cst_4, main_v22, main_v23, main_v24,
    main_v25, main_v26, main_v27]
def wr2 : List (Ref sig .tc) :=
  [main_c_5, main_v29, main_v30, main_c_6, main_v31, main_v32, main_v33, main_v34, main_v35, main_cst_7, main_v36, main_v37, main_v38,
    main_v39, main_v40, main_v41]
def wr3 : List (Ref sig .tc) :=
  [main_cst_8, main_v43, main_v44, main_v45, main_cst_9, main_v46, main_cst_10, main_v47, main_v48, main_v49, main_cst_11, main_v50,
    main_v51, main_v52, main_v53, main_v54, main_v55, main_v56, main_v57]

/-- Closes "no operation of this stretch writes b" for a buffer b outside the stretch's written list (hypothesis `hb`): each
    operation writes one named buffer, and b equal to it would put b in the list. -/
macro "stretch_keeps" hb:ident : tactic => `(tactic| (
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (refine StableHlo.devRef_ne_of_ne (fun e => ?_); subst e; revert $hb:ident; decide)))

theorem keepH0 (c : Dev nD) (b : Ref sig .tc) (hb : b ∉ wr0) : W1 m ρ c (Proc.devRef .tc b) = W0 m ρ c (Proc.devRef .tc b) :=
  StableHlo.after_of_forall_not_mem (b := Proc.devRef .tc b) _ _ (List.forall_iff_forall_mem.mp (by stretch_keeps hb))

theorem keepH1 (c : Dev nD) (b : Ref sig .tc) (hb : b ∉ wr1) : W3 m ρ c (Proc.devRef .tc b) = W2 m ρ c (Proc.devRef .tc b) :=
  StableHlo.after_of_forall_not_mem (b := Proc.devRef .tc b) _ _ (List.forall_iff_forall_mem.mp (by stretch_keeps hb))

theorem keepH2 (c : Dev nD) (b : Ref sig .tc) (hb : b ∉ wr2) : W5 m ρ c (Proc.devRef .tc b) = W4 m ρ c (Proc.devRef .tc b) :=
  StableHlo.after_of_forall_not_mem (b := Proc.devRef .tc b) _ _ (List.forall_iff_forall_mem.mp (by stretch_keeps hb))

theorem keepH3 (c : Dev nD) (b : Ref sig .tc) (hb : b ∉ wr3) : W7 m ρ c (Proc.devRef .tc b) = W6 m ρ c (Proc.devRef .tc b) :=
  StableHlo.after_of_forall_not_mem (b := Proc.devRef .tc b) _ _ (List.forall_iff_forall_mem.mp (by stretch_keeps hb))

/-- Region 0 changes its result array only. -/
theorem keepR0 (c : Dev nD) (b : Ref sig .tc) (hb : b ≠ main_v14) :
    W2 m ρ c (Proc.devRef .tc b) = W1 m ρ c (Proc.devRef .tc b) := by
  by_cases h : ∃ w, Pipeline.arrRef spec0 w = b
  · obtain ⟨w, rfl⟩ := h
    refine (W2_arr m ρ c w).trans ?_
    fin_cases w
    · exact ((dat0 (V1 m ρ) c).arrAt_in 0 rfl _).trans (A_eq0 (V1 m ρ) c 0)
    · exact ((dat0 (V1 m ρ) c).arrAt_in 1 rfl _).trans (A_eq0 (V1 m ρ) c 1)
    · exact ((dat0 (V1 m ρ) c).arrAt_in 2 rfl _).trans (A_eq0 (V1 m ρ) c 2)
    · exact absurd rfl hb
  · exact W2_of_ne m ρ c b (fun w e => h ⟨w, e⟩)

/-- Region 1 changes its result array only. -/
theorem keepR1 (c : Dev nD) (b : Ref sig .tc) (hb : b ≠ main_v28) :
    W4 m ρ c (Proc.devRef .tc b) = W3 m ρ c (Proc.devRef .tc b) := by
  by_cases h : ∃ w, Pipeline.arrRef spec1 w = b
  · obtain ⟨w, rfl⟩ := h
    refine (W4_arr m ρ c w).trans ?_
    fin_cases w
    · exact ((dat1 (V3 m ρ) c).arrAt_in 0 rfl _).trans (A_eq1 (V3 m ρ) c 0)
    · exact ((dat1 (V3 m ρ) c).arrAt_in 1 rfl _).trans (A_eq1 (V3 m ρ) c 1)
    · exact ((dat1 (V3 m ρ) c).arrAt_in 2 rfl _).trans (A_eq1 (V3 m ρ) c 2)
    · exact ((dat1 (V3 m ρ) c).arrAt_in 3 rfl _).trans (A_eq1 (V3 m ρ) c 3)
    · exact ((dat1 (V3 m ρ) c).arrAt_in 4 rfl _).trans (A_eq1 (V3 m ρ) c 4)
    · exact absurd rfl hb
  · exact W4_of_ne m ρ c b (fun w e => h ⟨w, e⟩)

/-- Region 2 changes its result array only. -/
theorem keepR2 (c : Dev nD) (b : Ref sig .tc) (hb : b ≠ main_v42) :
    W6 m ρ c (Proc.devRef .tc b) = W5 m ρ c (Proc.devRef .tc b) := by
  by_cases h : ∃ w, Pipeline.arrRef spec2 w = b
  · obtain ⟨w, rfl⟩ := h
    refine (W6_arr m ρ c w).trans ?_
    fin_cases w
    · exact ((dat2 (V5 m ρ) c).arrAt_in 0 rfl _).trans (A_eq2 (V5 m ρ) c 0)
    · exact ((dat2 (V5 m ρ) c).arrAt_in 1 rfl _).trans (A_eq2 (V5 m ρ) c 1)
    · exact ((dat2 (V5 m ρ) c).arrAt_in 2 rfl _).trans (A_eq2 (V5 m ρ) c 2)
    · exact ((dat2 (V5 m ρ) c).arrAt_in 3 rfl _).trans (A_eq2 (V5 m ρ) c 3)
    · exact ((dat2 (V5 m ρ) c).arrAt_in 4 rfl _).trans (A_eq2 (V5 m ρ) c 4)
    · exact absurd rfl hb
  · exact W6_of_ne m ρ c b (fun w e => h ⟨w, e⟩)

end Cert.KernelIdeal.Keeps

end
-- ==== Proof.KernelHost.lean ====
/-
  What each host stretch of the kernel program computes, as functions of the buffers it reads, whatever those buffers hold:
  the edge endpoints out of the edge list, the reciprocal clamped in-degree, the mean over in-neighbours of a feature array,
  the mean over each graph's nodes, and the bias vectors recast as one-row arrays.
-/
import proofs.«158993_j2508260901292_1_alg».proof.Proof.Gen.KernelIdeal.Launch
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- Row 0 of the edge list: the source of each edge. -/
def srcOf (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- Row 1 of the edge list: the destination of each edge. -/
def dstOf (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- 1 / max (in-degree) 1 of every node, as a column: ones scattered onto the destinations, clamped below at one, inverted. -/
def dinvOf (dst : (⟨S600000, .i32⟩ : BufTy).Contents (Elt F)) : FVec F S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S600000x1_S600000_n_0_0_1
          (broadcastInDim S50000 ![] bcast_S_S50000 (constant S_ .f32 0x00000000#32))
          (broadcastInDim S600000x1 ![0] bcast_S600000_S600000x1_0 dst)
          (broadcastInDim S600000 ![] bcast_S_S600000 (constant S_ .f32 0x3F800000#32)))
        (broadcastInDim S50000 ![] bcast_S_S50000 (constant S_ .f32 0x3F800000#32))))

/-- The mean over in-neighbours: rows of h gathered at the (wrapped) sources, added onto the destinations, scaled by the
    reciprocal clamped in-degree. -/
def aggOf (h : FVec F S50000x128 .f32) (src dst : (⟨S600000, .i32⟩ : BufTy).Contents (Elt F)) (dinv : FVec F S50000x1 .f32) :
    FVec F S50000x128 .f32 :=
  mulf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (Host.gather gather_S50000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1 dinv)

/-- The mean over each graph's nodes: rows of h added onto their graph, divided by the graph's node count clamped below at one. -/
def poolOf (h : FVec F S50000x128 .f32) (bt : (⟨S50000, .i32⟩ : BufTy).Contents (Elt F)) : FVec F S256x128 .f32 :=
  Host.divf
    (Host.scatterAdd scatter_S256x128_S50000x1_S50000x128_1_0_0_1
      (broadcastInDim S256x128 ![] bcast_S_S256x128 (constant S_ .f32 0x00000000#32))
      (broadcastInDim S50000x1 ![0] bcast_S50000_S50000x1_0 bt) h)
    (broadcastInDim S256x128 ![0, 1] bcast_S256x1_S256x128_0_1
      (broadcastInDim S256x1 ![0] bcast_S256_S256x1_0
        (maximumf
          (Host.scatterAdd scatter_S256_S50000x1_S50000_n_0_0_1
            (broadcastInDim S256 ![] bcast_S_S256 (constant S_ .f32 0x00000000#32))
            (broadcastInDim S50000x1 ![0] bcast_S50000_S50000x1_0 bt)
            (broadcastInDim S50000 ![] bcast_S_S50000 (constant S_ .f32 0x3F800000#32)))
          (broadcastInDim S256 ![] bcast_S_S256 (constant S_ .f32 0x3F800000#32)))))

/-- A bias vector recast as a one-row array. -/
def row128 (b : FVec F S128 .f32) : FVec F S1x128 .f32 := shapeCast _ b shapeCasts_S128_S1x128
def row64 (b : FVec F S64 .f32) : FVec F S1x64 .f32 := shapeCast _ b shapeCasts_S64_S1x64
def row1 (b : FVec F S1 .f32) : FVec F S1x1 .f32 := shapeCast _ b shapeCasts_S1_S1x1

variable (W : Valuation τ sig (Elt F))

/-! ## The first stretch -/

theorem h0_v1 : StableHlo.after hostOps0 W (Proc.devRef .tc main_v1) = srcOf (W (Proc.devRef .tc main_arg1)) := by
  unfold srcOf
  after_results_simp <;> rfl
theorem h0_v3 : StableHlo.after hostOps0 W (Proc.devRef .tc main_v3) = dstOf (W (Proc.devRef .tc main_arg1)) := by
  unfold dstOf
  after_results_simp <;> rfl
theorem h0_v12 : StableHlo.after hostOps0 W (Proc.devRef .tc main_v12) = dinvOf (dstOf (W (Proc.devRef .tc main_arg1))) := by
  unfold dinvOf dstOf
  after_results_simp <;> rfl
theorem h0_v13 : StableHlo.after hostOps0 W (Proc.devRef .tc main_v13) = row128 (W (Proc.devRef .tc main_arg4)) := by
  unfold row128
  after_results_simp <;> rfl

/-! ## The second stretch -/

theorem h1_v26 : StableHlo.after hostOps1 W (Proc.devRef .tc main_v26)
    = aggOf (W (Proc.devRef .tc main_v14)) (W (Proc.devRef .tc main_v1)) (W (Proc.devRef .tc main_v3)) (W (Proc.devRef .tc main_v12)) := by
  unfold aggOf
  after_results_simp <;> rfl
theorem h1_v27 : StableHlo.after hostOps1 W (Proc.devRef .tc main_v27) = row128 (W (Proc.devRef .tc main_arg6)) := by
  unfold row128
  after_results_simp <;> rfl

/-! ## The third stretch -/

theorem h2_v40 : StableHlo.after hostOps2 W (Proc.devRef .tc main_v40)
    = aggOf (W (Proc.devRef .tc main_v28)) (W (Proc.devRef .tc main_v1)) (W (Proc.devRef .tc main_v3)) (W (Proc.devRef .tc main_v12)) := by
  unfold aggOf
  after_results_simp <;> rfl
theorem h2_v41 : StableHlo.after hostOps2 W (Proc.devRef .tc main_v41) = row128 (W (Proc.devRef .tc main_arg9)) := by
  unfold row128
  after_results_simp <;> rfl

/-! ## The fourth stretch -/

theorem h3_v54 : StableHlo.after hostOps3 W (Proc.devRef .tc main_v54)
    = poolOf (W (Proc.devRef .tc main_v42)) (W (Proc.devRef .tc main_arg2)) := by
  unfold poolOf
  after_results_simp <;> rfl
theorem h3_v55 : StableHlo.after hostOps3 W (Proc.devRef .tc main_v55) = row128 (W (Proc.devRef .tc main_arg12)) := by
  unfold row128
  after_results_simp <;> rfl
theorem h3_v56 : StableHlo.after hostOps3 W (Proc.devRef .tc main_v56) = row64 (W (Proc.devRef .tc main_arg14)) := by
  unfold row64
  after_results_simp <;> rfl
theorem h3_v57 : StableHlo.after hostOps3 W (Proc.devRef .tc main_v57) = row1 (W (Proc.devRef .tc main_arg16)) := by
  unfold row1
  after_results_simp <;> rfl

end Cert.KernelIdeal.Host

end
-- ==== Proof.Spec.lean ====
/-
  The dense stages of the network, entry by entry, over the extended reals, for any number of rows.

  * An affine layer at (r, c): the sum over k of x (r, k) * W (k, c), plus the bias b c.
  * The input projection: the affine layer clamped below at zero.
  * The neighbourhood layer: u (r, c) = (agg W_l + b) (r, c) + (h W_r) (r, c); the row's length
    n r = max (sqrt (sum over c of u (r, c)^2)) eps; the entry is u (r, c) / n r clamped below at zero.
  * The pooled read-out: two clamped affine layers and one affine layer.

  Every entry of row r depends on row r of the row-indexed operands only (`*_rows`): a block of rows of the result
  is the same function of the same block of rows of the operands.
-/
import Idealize.ShloMosaic.Lib.ValueIdx
import Idealize.ShloMosaic.PureOps.Ideal.Laws

noncomputable section

namespace Cert.Dense

open Idealize.ShloMosaic Idealize.ShloMosaic.ValueIdx

/-- A rank-two array of extended reals. -/
abbrev Mat (M N : Nat) : Type := (⟨2, ![M, N]⟩ : Shape).Idx → EReal

/-- A rank-two array from its entries. -/
def ofAt {M N : Nat} (f : Fin M → Fin N → EReal) : Mat M N := fun i => f (i 0) (i 1)

theorem ofAt_ix2 {M N : Nat} (f : Fin M → Fin N → EReal) (r : Fin M) (c : Fin N) : ofAt f (ix2 r c) = f r c := rfl

/-- The word of +0.0 (both programs clamp against it) and the word of the length floor 1e-12 (both divide by at least it). -/
abbrev zeroW : EReal := Ideal.ofBits .f32 0x00000000#32
abbrev epsW : EReal := Ideal.ofBits .f32 0x2B8CBCCC#32

/-- (x W + b) at (r, c). -/
def affineAt {M K N : Nat} (x : Mat M K) (W : Mat K N) (b : Fin N → EReal) (r : Fin M) (c : Fin N) : EReal :=
  (∑ k : Fin K, x (ix2 r k) * W (ix2 k c)) + b c

/-- max (x W + b) 0 at (r, c). -/
def reluAffineAt {M K N : Nat} (x : Mat M K) (W : Mat K N) (b : Fin N → EReal) (r : Fin M) (c : Fin N) : EReal :=
  max (affineAt x W b r c) zeroW

/-- u = (agg W_l + b) + h W_r at (r, c). -/
def sagePreAt {M D : Nat} (agg h : Mat M D) (Wl : Mat D D) (b : Fin D → EReal) (Wr : Mat D D) (r : Fin M) (c : Fin D) : EReal :=
  affineAt agg Wl b r c + ∑ k : Fin D, h (ix2 r k) * Wr (ix2 k c)

/-- The length of row r of u, floored at eps. -/
def sageNormAt {M D : Nat} (agg h : Mat M D) (Wl : Mat D D) (b : Fin D → EReal) (Wr : Mat D D) (r : Fin M) : EReal :=
  max (Ideal.sqrt (∑ c : Fin D, sagePreAt agg h Wl b Wr r c * sagePreAt agg h Wl b Wr r c)) epsW

/-- max (u / length) 0 at (r, c). -/
def sageAt {M D : Nat} (agg h : Mat M D) (Wl : Mat D D) (b : Fin D → EReal) (Wr : Mat D D) (r : Fin M) (c : Fin D) : EReal :=
  max (Ideal.div (sagePreAt agg h Wl b Wr r c) (sageNormAt agg h Wl b Wr r)) zeroW

/-- The input projection as an array. -/
def proj {M K N : Nat} (x : Mat M K) (W : Mat K N) (b : Fin N → EReal) : Mat M N := ofAt (reluAffineAt x W b)

/-- The neighbourhood layer as an array. -/
def sage {M D : Nat} (agg h : Mat M D) (Wl : Mat D D) (b : Fin D → EReal) (Wr : Mat D D) : Mat M D := ofAt (sageAt agg h Wl b Wr)

/-- The pooled read-out as an array: affine after two clamped affine layers. -/
def mlp {G D1 D2 D3 D4 : Nat} (g : Mat G D1) (W1 : Mat D1 D2) (b1 : Fin D2 → EReal) (W2 : Mat D2 D3) (b2 : Fin D3 → EReal)
    (W3 : Mat D3 D4) (b3 : Fin D4 → EReal) : Mat G D4 :=
  ofAt (affineAt (proj (proj g W1 b1) W2 b2) W3 b3)

/-! ## Row locality -/

theorem affineAt_rows {M M' K N : Nat} (x : Mat M K) (x' : Mat M' K) (W : Mat K N) (b : Fin N → EReal) (r : Fin M) (r' : Fin M')
    (hx : ∀ k, x (ix2 r k) = x' (ix2 r' k)) (c : Fin N) : affineAt x W b r c = affineAt x' W b r' c := by
  unfold affineAt
  rw [Finset.sum_congr rfl fun k _ => by rw [hx k]]

theorem reluAffineAt_rows {M M' K N : Nat} (x : Mat M K) (x' : Mat M' K) (W : Mat K N) (b : Fin N → EReal) (r : Fin M) (r' : Fin M')
    (hx : ∀ k, x (ix2 r k) = x' (ix2 r' k)) (c : Fin N) : reluAffineAt x W b r c = reluAffineAt x' W b r' c := by
  unfold reluAffineAt
  rw [affineAt_rows x x' W b r r' hx c]

theorem sagePreAt_rows {M M' D : Nat} (agg h : Mat M D) (agg' h' : Mat M' D) (Wl : Mat D D) (b : Fin D → EReal) (Wr : Mat D D)
    (r : Fin M) (r' : Fin M') (ha : ∀ k, agg (ix2 r k) = agg' (ix2 r' k)) (hh : ∀ k, h (ix2 r k) = h' (ix2 r' k)) (c : Fin D) :
    sagePreAt agg h Wl b Wr r c = sagePreAt agg' h' Wl b Wr r' c := by
  unfold sagePreAt
  rw [affineAt_rows agg agg' Wl b r r' ha c, Finset.sum_congr rfl fun k _ => by rw [hh k]]

theorem sageAt_rows {M M' D : Nat} (agg h : Mat M D) (agg' h' : Mat M' D) (Wl : Mat D D) (b : Fin D → EReal) (Wr : Mat D D)
    (r : Fin M) (r' : Fin M') (ha : ∀ k, agg (ix2 r k) = agg' (ix2 r' k)) (hh : ∀ k, h (ix2 r k) = h' (ix2 r' k)) (c : Fin D) :
    sageAt agg h Wl b Wr r c = sageAt agg' h' Wl b Wr r' c := by
  unfold sageAt sageNormAt
  rw [sagePreAt_rows agg h agg' h' Wl b Wr r r' ha hh c,
    Finset.sum_congr rfl fun c' _ => by rw [sagePreAt_rows agg h agg' h' Wl b Wr r r' ha hh c']]

end Cert.Dense

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.KernelPay.lean ====
/-
  What each kernel body stores, read at an entry of its block over the extended reals: the dense stage of the block's rows.
-/
import proofs.«158993_j2508260901292_1_alg».proof.Proof.Gen.KernelIdeal.Skeleton
import proofs.«158993_j2508260901292_1_alg».proof.Proof.Spec
import proofs.«158993_j2508260901292_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The one row of a [1, N] array as a function of the column. -/
abbrev rowOf {N : Nat} (b : Cert.Dense.Mat 1 N) : Fin N → EReal := fun c => b (ix2 ⟨0, Nat.one_pos⟩ c)

/-- An affine layer in the kernel's operations, read at (r, c). -/
theorem affine_apply (M K N : Nat) (d : DotDims ⟨2, ![M, K]⟩ ⟨2, ![K, N]⟩ ⟨2, ![M, N]⟩) (hd : d = DotDims.plain M K N)
    (x : Vec Ideal ⟨2, ![M, K]⟩ .f32) (W : Vec Ideal ⟨2, ![K, N]⟩ .f32) (b : Vec Ideal ⟨2, ![1, N]⟩ .f32)
    (hb : (⟨2, ![1, N]⟩ : Shape).Broadcasts ⟨2, ![M, N]⟩) (r : Fin M) (c : Fin N) :
    addf (F := Ideal) (matmul d none (truncf (F := Ideal) .bf16 x bitsLt_bf16_f32) (truncf (F := Ideal) .bf16 W bitsLt_bf16_f32) (constant ⟨2, ![M, N]⟩ .f32 0x00000000#32))
        (broadcastTo ⟨2, ![M, N]⟩ b hb) (ix2 r c)
      = Cert.Dense.affineAt x W (rowOf b) r c := by
  subst hd
  show matmul (F := Ideal) (DotDims.plain M K N) none _ _ _ (ix2 r c) + broadcastTo ⟨2, ![M, N]⟩ b hb (ix2 r c) = _
  rw [Cert.LibPlainDot.matmul_plain_apply, Cert.LibPlainDot.bcastRow_apply]
  rfl

/-- A product of format-changed operands into the zero accumulator, read at (r, c). -/
theorem dot_apply (M K N : Nat) (d : DotDims ⟨2, ![M, K]⟩ ⟨2, ![K, N]⟩ ⟨2, ![M, N]⟩) (hd : d = DotDims.plain M K N)
    (x : Vec Ideal ⟨2, ![M, K]⟩ .f32) (W : Vec Ideal ⟨2, ![K, N]⟩ .f32) (r : Fin M) (c : Fin N) :
    matmul (F := Ideal) d none (truncf (F := Ideal) .bf16 x bitsLt_bf16_f32) (truncf (F := Ideal) .bf16 W bitsLt_bf16_f32)
        (constant ⟨2, ![M, N]⟩ .f32 0x00000000#32) (ix2 r c)
      = ∑ k : Fin K, x (ix2 r k) * W (ix2 k c) := by
  subst hd
  rw [Cert.LibPlainDot.matmul_plain_apply]
  rfl

/-- The floored length of row r in the kernel's operations: the squares summed along the row, the sum recast as a
    column, its root floored, the column broadcast along the row. -/
theorem rowNorm_apply (u : FVec Ideal S5000x128 .f32) (hred : S5000x128.Reduces [1] S5000) (hφ : FKind.Formats .f32)
    (hacc : (0x00000000#32 : BitVec 32) = FKind.add.neutral .f32 hφ) (hsc : S5000.ShapeCasts S5000x1)
    (hb : S5000x1.Broadcasts S5000x128) (e : EReal) (r : Fin 5000) (c : Fin 128) :
    broadcastTo S5000x128 (maximumf (F := Ideal) (sqrt (F := Ideal) (shapeCast S5000x1
        (multiReduction (F := Ideal) .add [1] S5000 (mulf (F := Ideal) u u) 0x00000000#32 hred hφ hacc) hsc)) (broadcast S5000x1 e)) hb (ix2 r c)
      = max (Ideal.sqrt (∑ k : Fin 128, u (ix2 r k) * u (ix2 r k))) e := by
  refine (broadcastTo_apply _ hb (ix2 r c) (ix2 r ⟨0, Nat.one_pos⟩) (fun a => match a with
    | ⟨0, _⟩ => by show r.val = if (5000 : Nat) = 1 then 0 else r.val; rw [if_neg (by decide)]
    | ⟨1, _⟩ => by show (0 : Nat) = if (1 : Nat) = 1 then 0 else c.val; rw [if_pos rfl])).trans ?_
  show max (Ideal.sqrt (shapeCast S5000x1 _ hsc (ix2 r ⟨0, Nat.one_pos⟩))) e = _
  rw [shapeCast_apply _ hsc (ix2 r ⟨0, Nat.one_pos⟩) (ix1 r) (by
    rw [Shape.rowMajor_val_one, Shape.rowMajor_val_two]
    show r.val = r.val * 1 + 0
    omega)]
  rw [Ideal.multiReduction_add_single]
  show max (Ideal.sqrt (∑ k : Fin 128, (u (hred.lift (ix1 r) k) * u (hred.lift (ix1 r) k)))) e = _
  have hl : ∀ k : Fin 128, hred.lift (ix1 r) k = ix2 r k := fun k => funext fun a => match a with
    | ⟨0, _⟩ => Fin.ext rfl
    | ⟨1, _⟩ => Fin.ext rfl
  rw [Finset.sum_congr rfl fun k _ => by rw [hl k]]

/-- The neighbourhood layer before normalisation in the kernel's operations, read at (r, c). -/
theorem pre_apply (M D : Nat) (d : DotDims ⟨2, ![M, D]⟩ ⟨2, ![D, D]⟩ ⟨2, ![M, D]⟩) (hd : d = DotDims.plain M D D)
    (agg h : Vec Ideal ⟨2, ![M, D]⟩ .f32) (Wl : Vec Ideal ⟨2, ![D, D]⟩ .f32) (b : Vec Ideal ⟨2, ![1, D]⟩ .f32)
    (Wr : Vec Ideal ⟨2, ![D, D]⟩ .f32) (hb : (⟨2, ![1, D]⟩ : Shape).Broadcasts ⟨2, ![M, D]⟩) (r : Fin M) (c : Fin D) :
    addf (F := Ideal) (addf (F := Ideal) (matmul d none (truncf (F := Ideal) .bf16 agg bitsLt_bf16_f32) (truncf (F := Ideal) .bf16 Wl bitsLt_bf16_f32)
          (constant ⟨2, ![M, D]⟩ .f32 0x00000000#32)) (broadcastTo ⟨2, ![M, D]⟩ b hb))
        (matmul d none (truncf (F := Ideal) .bf16 h bitsLt_bf16_f32) (truncf (F := Ideal) .bf16 Wr bitsLt_bf16_f32)
          (constant ⟨2, ![M, D]⟩ .f32 0x00000000#32)) (ix2 r c)
      = Cert.Dense.sagePreAt agg h Wl (rowOf b) Wr r c := by
  show addf (F := Ideal) (matmul d none _ _ _) (broadcastTo ⟨2, ![M, D]⟩ b hb) (ix2 r c) + matmul (F := Ideal) d none _ _ _ (ix2 r c) = _
  rw [affine_apply M D D d hd, dot_apply M D D d hd]
  rfl

/-- The normalised, clamped layer over any pre-normalisation array u, read at (r, c). -/
theorem sageTail_apply (u : FVec Ideal S5000x128 .f32) (hred : S5000x128.Reduces [1] S5000) (hφ : FKind.Formats .f32)
    (hacc : (0x00000000#32 : BitVec 32) = FKind.add.neutral .f32 hφ) (hsc : S5000.ShapeCasts S5000x1)
    (hb : S5000x1.Broadcasts S5000x128) (e z : EReal) (r : Fin 5000) (c : Fin 128) :
    maximumf (F := Ideal) (divf (F := Ideal) u (broadcastTo S5000x128 (maximumf (F := Ideal) (sqrt (F := Ideal) (shapeCast S5000x1
        (multiReduction (F := Ideal) .add [1] S5000 (mulf (F := Ideal) u u) 0x00000000#32 hred hφ hacc) hsc)) (broadcast S5000x1 e)) hb))
        (broadcast S5000x128 z) (ix2 r c)
      = max (Ideal.div (u (ix2 r c)) (max (Ideal.sqrt (∑ k : Fin 128, u (ix2 r k) * u (ix2 r k))) e)) z := by
  show max (Ideal.div (u (ix2 r c)) (broadcastTo S5000x128 _ hb (ix2 r c))) z = _
  rw [rowNorm_apply]

/-- A clamped affine layer in the kernel's operations is the specification's array, entry by entry. -/
theorem relu_eq_proj (M K N : Nat) (d : DotDims ⟨2, ![M, K]⟩ ⟨2, ![K, N]⟩ ⟨2, ![M, N]⟩) (hd : d = DotDims.plain M K N)
    (x : Vec Ideal ⟨2, ![M, K]⟩ .f32) (W : Vec Ideal ⟨2, ![K, N]⟩ .f32) (b : Vec Ideal ⟨2, ![1, N]⟩ .f32)
    (hb : (⟨2, ![1, N]⟩ : Shape).Broadcasts ⟨2, ![M, N]⟩) :
    maximumf (F := Ideal) (addf (F := Ideal) (matmul d none (truncf (F := Ideal) .bf16 x bitsLt_bf16_f32) (truncf (F := Ideal) .bf16 W bitsLt_bf16_f32)
          (constant ⟨2, ![M, N]⟩ .f32 0x00000000#32)) (broadcastTo ⟨2, ![M, N]⟩ b hb))
        (broadcast ⟨2, ![M, N]⟩ (Scalar.ofBits (F := Ideal) .f32 0x00000000#32))
      = Cert.Dense.proj x W (rowOf b) := by
  funext i
  obtain ⟨r, c, rfl⟩ : ∃ (r : Fin M) (c : Fin N), i = ix2 r c := ⟨i 0, i 1, eq_ix2 i⟩
  show max (addf (F := Ideal) (matmul d none _ _ _) (broadcastTo ⟨2, ![M, N]⟩ b hb) (ix2 r c)) (Ideal.ofBits .f32 0x00000000#32) = _
  rw [affine_apply M K N d hd]
  rfl

/-- The projection body: a block of rows of max (x W + b) 0. -/
theorem k0_pay (x0 : Vec Ideal S5000x5 .f32) (x1 : Vec Ideal S5x128 .f32) (x2 : Vec Ideal S1x128 .f32) (r : Fin 5000) (c : Fin 128) :
    k0_pay1 (F := Ideal) x0 x1 x2 (ix2 r c) = Cert.Dense.reluAffineAt x0 x1 (rowOf x2) r c := by
  unfold k0_pay1
  rw [shapeCast_self]
  show max (addf (F := Ideal) (matmul dot_S5000x5_S5x128_S5000x128_1_0_0_1_n_n none _ _ _) _ (ix2 r c)) (Ideal.ofBits .f32 0x00000000#32) = _
  rw [affine_apply 5000 5 128 dot_S5000x5_S5x128_S5000x128_1_0_0_1_n_n rfl]
  rfl

/-- The first neighbourhood body: a block of rows of the normalised, clamped layer. -/
theorem k1_pay (v0 v2 : Vec Ideal S5000x128 .f32) (v4 : Vec Ideal S128x128 .f32) (v5 : Vec Ideal S1x128 .f32) (v7 : Vec Ideal S128x128 .f32)
    (r : Fin 5000) (c : Fin 128) :
    k1_pay1 (F := Ideal) v0 v2 v4 v5 v7 (ix2 r c) = Cert.Dense.sageAt v0 v2 v4 (rowOf v5) v7 r c := by
  unfold k1_pay1
  rw [shapeCast_self, shapeCast_self, shapeCast_self]
  refine (sageTail_apply _ _ _ _ _ _ _ _ r c).trans ?_
  unfold Cert.Dense.sageAt Cert.Dense.sageNormAt
  rw [pre_apply 5000 128 dot_S5000x128_S128x128_S5000x128_1_0_0_1_n_n rfl,
    Finset.sum_congr rfl fun k _ => by rw [pre_apply 5000 128 dot_S5000x128_S128x128_S5000x128_1_0_0_1_n_n rfl v0 v2 v4 v5 v7 _ r k]]
  rfl

/-- The second neighbourhood body: the same function. -/
theorem k2_pay (v0 v2 : Vec Ideal S5000x128 .f32) (v4 : Vec Ideal S128x128 .f32) (v5 : Vec Ideal S1x128 .f32) (v7 : Vec Ideal S128x128 .f32)
    (r : Fin 5000) (c : Fin 128) :
    k2_pay1 (F := Ideal) v0 v2 v4 v5 v7 (ix2 r c) = Cert.Dense.sageAt v0 v2 v4 (rowOf v5) v7 r c := by
  exact k1_pay v0 v2 v4 v5 v7 r c

/-- The read-out body: the whole pooled read-out. -/
theorem k3_pay (v0 : Vec Ideal S256x128 .f32) (v2 : Vec Ideal S128x128 .f32) (v3 : Vec Ideal S1x128 .f32) (v5 : Vec Ideal S128x64 .f32)
    (v6 : Vec Ideal S1x64 .f32) (v8 : Vec Ideal S64x1 .f32) (v9 : Vec Ideal S1x1 .f32) (r : Fin 256) (c : Fin 1) :
    k3_pay1 (F := Ideal) v0 v2 v3 v5 v6 v8 v9 (ix2 r c)
      = Cert.Dense.mlp v0 v2 (rowOf v3) v5 (rowOf v6) v8 (rowOf v9) (ix2 r c) := by
  unfold k3_pay1
  rw [shapeCast_self, shapeCast_self, shapeCast_self, shapeCast_self]
  rw [relu_eq_proj 256 128 128 dot_S256x128_S128x128_S256x128_1_0_0_1_n_n rfl]
  rw [relu_eq_proj 256 128 64 dot_S256x128_S128x64_S256x64_1_0_0_1_n_n rfl]
  rw [affine_apply 256 64 1 dot_S256x64_S64x1_S256x1_1_0_0_1_n_n rfl]
  rfl

end Cert.KernelIdeal.Pay

end
-- ==== Proof.Region0.lean ====
/-
  Region 0 (the input projection). Its grid has ten points; point t reads rows 5000 t … 5000 t + 4999 of x, all of W and the one
  bias row, and writes back the same rows of the result. Every row of the result depends on the same row of x only, so the
  block point t writes is the block of ONE whole-array function, the dense projection of the arrays the region finds; the ten
  blocks tile the 50000 rows; hence the array after the region is that function.
-/
import proofs.«158993_j2508260901292_1_alg».proof.Proof.Gen.KernelIdeal.Frame
import proofs.«158993_j2508260901292_1_alg».proof.Proof.KernelPay

set_option maxRecDepth 16384

noncomputable section

namespace Cert.KernelIdeal.Region0

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row-blocked windows sit at block row t, column block 0; the weight and the
    bias row are fetched whole. -/
theorem idx_facts : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of block t is row 5000 t + r of the array. -/
abbrev rowAt (t : Fin cfg0.N) (r : Fin 5000) : Fin 50000 :=
  ⟨t.val * 5000 + r.val, by have := (idx_facts t).1; have := r.isLt; omega⟩

/-- What the region's result holds where covered: the dense projection of the arrays the region finds. -/
abbrev G (c : Dev nD) : S50000x128.Idx → Elt Ideal .f32 :=
  Cert.Dense.proj (V c main_arg0) (V c main_arg3) (rowOf (V c main_v13))

theorem blk_x (c : Dev nD) (t : Fin cfg0.N) (r : Fin 5000) (k : Fin 5) :
    iblk0 V c 0 t (ix2 r k) = V c main_arg0 (ix2 (rowAt t r) k) := by
  obtain ⟨-, e0, e1, -⟩ := idx_facts t
  show V c main_arg0 (((cfg0.win 0).blk t).view.emb (ix2 r k)) = V c main_arg0 (ix2 (rowAt t r) k)
  refine congrArg _ (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 5 + 1 * k.val = k.val; rw [e1]; omega

theorem blk_w (c : Dev nD) (t : Fin cfg0.N) (y : S5x128.Idx) : iblk0 V c 1 t y = V c main_arg3 y := by
  obtain ⟨-, -, -, e0, e1, -⟩ := idx_facts t
  show V c main_arg3 (((cfg0.win 1).blk t).view.emb y) = V c main_arg3 y
  refine congrArg _ (funext fun a => Fin.ext ?_)
  match a with
  | ⟨0, _⟩ => show win0_1.index t (0 : Fin 2) * 5 + 1 * (y 0).val = (y 0).val; rw [e0]; omega
  | ⟨1, _⟩ => show win0_1.index t (1 : Fin 2) * 128 + 1 * (y 1).val = (y 1).val; rw [e1]; omega

theorem blk_b (c : Dev nD) (t : Fin cfg0.N) (y : S1x128.Idx) : iblk0 V c 2 t y = V c main_v13 y := by
  obtain ⟨-, -, -, -, -, e0, e1, -⟩ := idx_facts t
  show V c main_v13 (((cfg0.win 2).blk t).view.emb y) = V c main_v13 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem emb_out (t : Fin cfg0.N) (r : Fin 5000) (q : Fin 128) :
    ((cfg0.win 3).blk t).view.emb (ix2 r q) = ix2 (rowAt t r) q := by
  obtain ⟨-, -, -, -, -, -, -, e0, e1⟩ := idx_facts t
  refine funext fun a => Fin.ext ?_
  match a with
  | ⟨0, _⟩ => show win0_3.index t (0 : Fin 2) * 5000 + 1 * r.val = t.val * 5000 + r.val; rw [e0]; omega
  | ⟨1, _⟩ => show win0_3.index t (1 : Fin 2) * 128 + 1 * q.val = q.val; rw [e1]; omega

/-- WHAT POINT t WRITES BACK is block t of the dense projection of the arrays the region finds. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x5) hz, View.ld_unit_zero (S := S5x128) hz, View.ld_unit_zero (S := S1x128) hz]
  funext j
  obtain ⟨r, q, rfl⟩ : ∃ (r : Fin 5000) (q : Fin 128), j = ix2 r q := ⟨j 0, j 1, eq_ix2 j⟩
  show k0_pay1 (F := Ideal) (iblk0 V c 0 t) (iblk0 V c 1 t) (iblk0 V c 2 t) (ix2 r q) = G V c (((cfg0.win 3).blk t).view.emb (ix2 r q))
  rw [emb_out t r q]
  refine (k0_pay (iblk0 V c 0 t) (iblk0 V c 1 t) (iblk0 V c 2 t) r q).trans ?_
  show _ = Cert.Dense.reluAffineAt (V c main_arg0) (V c main_arg3) (rowOf (V c main_v13)) (rowAt t r) q
  rw [show (iblk0 V c 1 t : Vec Ideal S5x128 .f32) = V c main_arg3 from funext (blk_w V c t),
    show (iblk0 V c 2 t : Vec Ideal S1x128 .f32) = V c main_v13 from funext (blk_b V c t)]
  exact Cert.Dense.reluAffineAt_rows _ _ _ _ r (rowAt t r) (fun k => blk_x V c t r k) q

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every block row is SOME point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- The ten blocks tile the array: row i lies in block i / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after region 0: the dense projection of the arrays the region finds. -/
theorem final (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  Region 1 (the first neighbourhood layer). Its grid has ten points; point t reads rows 5000 t … 5000 t + 4999 of the aggregate and
  of the features, both weights and the one bias row whole, and writes back the same rows of the result. Every row of the result
  (its length included) depends on the same row of the two row-indexed operands only, so the block point t writes is the block of
  ONE whole-array function, the dense layer of the arrays the region finds; the ten blocks tile the 50000 rows; hence the array
  after the region is that function.
-/
import proofs.«158993_j2508260901292_1_alg».proof.Proof.Gen.KernelIdeal.Frame
import proofs.«158993_j2508260901292_1_alg».proof.Proof.KernelPay

set_option maxRecDepth 16384

noncomputable section

namespace Cert.KernelIdeal.Region1

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row-blocked windows sit at block row t, column block 0; the weights and the
    bias row are fetched whole. -/
theorem idx_facts : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of block t is row 5000 t + r of the array. -/
abbrev rowAt (t : Fin cfg1.N) (r : Fin 5000) : Fin 50000 :=
  ⟨t.val * 5000 + r.val, by have := (idx_facts t).1; have := r.isLt; omega⟩

/-- What the region's result holds where covered: the dense layer of the arrays the region finds. -/
abbrev G (c : Dev nD) : S50000x128.Idx → Elt Ideal .f32 :=
  Cert.Dense.sage (V c main_v26) (V c main_v14) (V c main_arg5) (rowOf (V c main_v27)) (V c main_arg7)

theorem blk_agg (c : Dev nD) (t : Fin cfg1.N) (r : Fin 5000) (k : Fin 128) :
    iblk1 V c 0 t (ix2 r k) = V c main_v26 (ix2 (rowAt t r) k) := by
  obtain ⟨-, e0, e1, -⟩ := idx_facts t
  show V c main_v26 (((cfg1.win 0).blk t).view.emb (ix2 r k)) = V c main_v26 (ix2 (rowAt t r) k)
  refine congrArg _ (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

theorem blk_h (c : Dev nD) (t : Fin cfg1.N) (r : Fin 5000) (k : Fin 128) :
    iblk1 V c 1 t (ix2 r k) = V c main_v14 (ix2 (rowAt t r) k) := by
  obtain ⟨-, -, -, e0, e1, -⟩ := idx_facts t
  show V c main_v14 (((cfg1.win 1).blk t).view.emb (ix2 r k)) = V c main_v14 (ix2 (rowAt t r) k)
  refine congrArg _ (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 128 + 1 * k.val = k.val; rw [e1]; omega

theorem blk_wl (c : Dev nD) (t : Fin cfg1.N) (y : S128x128.Idx) : iblk1 V c 2 t y = V c main_arg5 y := by
  obtain ⟨-, -, -, -, -, e0, e1, -⟩ := idx_facts t
  show V c main_arg5 (((cfg1.win 2).blk t).view.emb y) = V c main_arg5 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem blk_b (c : Dev nD) (t : Fin cfg1.N) (y : S1x128.Idx) : iblk1 V c 3 t y = V c main_v27 y := by
  obtain ⟨-, -, -, -, -, -, -, e0, e1, -⟩ := idx_facts t
  show V c main_v27 (((cfg1.win 3).blk t).view.emb y) = V c main_v27 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem blk_wr (c : Dev nD) (t : Fin cfg1.N) (y : S128x128.Idx) : iblk1 V c 4 t y = V c main_arg7 y := by
  obtain ⟨-, -, -, -, -, -, -, -, -, e0, e1, -⟩ := idx_facts t
  show V c main_arg7 (((cfg1.win 4).blk t).view.emb y) = V c main_arg7 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem emb_out (t : Fin cfg1.N) (r : Fin 5000) (q : Fin 128) :
    ((cfg1.win 5).blk t).view.emb (ix2 r q) = ix2 (rowAt t r) q := by
  obtain ⟨-, -, -, -, -, -, -, -, -, -, -, e0, e1⟩ := idx_facts t
  refine funext fun a => Fin.ext ?_
  match a with
  | ⟨0, _⟩ => show win1_5.index t (0 : Fin 2) * 5000 + 1 * r.val = t.val * 5000 + r.val; rw [e0]; omega
  | ⟨1, _⟩ => show win1_5.index t (1 : Fin 2) * 128 + 1 * q.val = q.val; rw [e1]; omega

/-- WHAT POINT t WRITES BACK is block t of the dense layer of the arrays the region finds. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  show k1_pay1 (F := Ideal) (iblk1 V c 0 t) (iblk1 V c 1 t) (iblk1 V c 2 t) (iblk1 V c 3 t) (iblk1 V c 4 t) (ix2 r q)
    = G V c (((cfg1.win 5).blk t).view.emb (ix2 r q))
  rw [emb_out t r q]
  refine (k1_pay (iblk1 V c 0 t) (iblk1 V c 1 t) (iblk1 V c 2 t) (iblk1 V c 3 t) (iblk1 V c 4 t) r q).trans ?_
  show _ = Cert.Dense.sageAt (V c main_v26) (V c main_v14) (V c main_arg5) (rowOf (V c main_v27)) (V c main_arg7) (rowAt t r) q
  rw [show (iblk1 V c 2 t : Vec Ideal S128x128 .f32) = V c main_arg5 from funext (blk_wl V c t),
    show (iblk1 V c 3 t : Vec Ideal S1x128 .f32) = V c main_v27 from funext (blk_b V c t),
    show (iblk1 V c 4 t : Vec Ideal S128x128 .f32) = V c main_arg7 from funext (blk_wr V c t)]
  exact Cert.Dense.sageAt_rows _ _ _ _ _ _ _ r (rowAt t r) (fun k => blk_agg V c t r k) (fun k => blk_h V c t r k) q

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

/-- Every block row is SOME point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- The ten blocks tile the array: row i lies in block i / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after region 1: the dense layer of the arrays the region finds. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  Region 2 (the second neighbourhood layer). Its grid has ten points; point t reads rows 5000 t … 5000 t + 4999 of the aggregate and
  of the features, both weights and the one bias row whole, and writes back the same rows of the result. Every row of the result
  (its length included) depends on the same row of the two row-indexed operands only, so the block point t writes is the block of
  ONE whole-array function, the dense layer of the arrays the region finds; the ten blocks tile the 50000 rows; hence the array
  after the region is that function.
-/
import proofs.«158993_j2508260901292_1_alg».proof.Proof.Gen.KernelIdeal.Frame
import proofs.«158993_j2508260901292_1_alg».proof.Proof.KernelPay

set_option maxRecDepth 16384

noncomputable section

namespace Cert.KernelIdeal.Region2

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row-blocked windows sit at block row t, column block 0; the weights and the
    bias row are fetched whole. -/
theorem idx_facts : ∀ t : Fin cfg2.N, t.val < 10
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of block t is row 5000 t + r of the array. -/
abbrev rowAt (t : Fin cfg2.N) (r : Fin 5000) : Fin 50000 :=
  ⟨t.val * 5000 + r.val, by have := (idx_facts t).1; have := r.isLt; omega⟩

/-- What the region's result holds where covered: the dense layer of the arrays the region finds. -/
abbrev G (c : Dev nD) : S50000x128.Idx → Elt Ideal .f32 :=
  Cert.Dense.sage (V c main_v40) (V c main_v28) (V c main_arg8) (rowOf (V c main_v41)) (V c main_arg10)

theorem blk_agg (c : Dev nD) (t : Fin cfg2.N) (r : Fin 5000) (k : Fin 128) :
    iblk2 V c 0 t (ix2 r k) = V c main_v40 (ix2 (rowAt t r) k) := by
  obtain ⟨-, e0, e1, -⟩ := idx_facts t
  show V c main_v40 (((cfg2.win 0).blk t).view.emb (ix2 r k)) = V c main_v40 (ix2 (rowAt t r) k)
  refine congrArg _ (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 128 + 1 * k.val = k.val; rw [e1]; omega

theorem blk_h (c : Dev nD) (t : Fin cfg2.N) (r : Fin 5000) (k : Fin 128) :
    iblk2 V c 1 t (ix2 r k) = V c main_v28 (ix2 (rowAt t r) k) := by
  obtain ⟨-, -, -, e0, e1, -⟩ := idx_facts t
  show V c main_v28 (((cfg2.win 1).blk t).view.emb (ix2 r k)) = V c main_v28 (ix2 (rowAt t r) k)
  refine congrArg _ (funext fun a => Fin.ext ?_)
  match a with
  | ⟨0, _⟩ => show win2_1.index t (0 : Fin 2) * 5000 + 1 * r.val = t.val * 5000 + r.val; rw [e0]; omega
  | ⟨1, _⟩ => show win2_1.index t (1 : Fin 2) * 128 + 1 * k.val = k.val; rw [e1]; omega

theorem blk_wl (c : Dev nD) (t : Fin cfg2.N) (y : S128x128.Idx) : iblk2 V c 2 t y = V c main_arg8 y := by
  obtain ⟨-, -, -, -, -, e0, e1, -⟩ := idx_facts t
  show V c main_arg8 (((cfg2.win 2).blk t).view.emb y) = V c main_arg8 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem blk_b (c : Dev nD) (t : Fin cfg2.N) (y : S1x128.Idx) : iblk2 V c 3 t y = V c main_v41 y := by
  obtain ⟨-, -, -, -, -, -, -, e0, e1, -⟩ := idx_facts t
  show V c main_v41 (((cfg2.win 3).blk t).view.emb y) = V c main_v41 y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

theorem blk_wr (c : Dev nD) (t : Fin cfg2.N) (y : S128x128.Idx) : iblk2 V c 4 t y = V c main_arg10 y := by
  obtain ⟨-, -, -, -, -, -, -, -, -, e0, e1, -⟩ := idx_facts t
  show V c main_arg10 (((cfg2.win 4).blk t).view.emb y) = V c main_arg10 y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

theorem emb_out (t : Fin cfg2.N) (r : Fin 5000) (q : Fin 128) :
    ((cfg2.win 5).blk t).view.emb (ix2 r q) = ix2 (rowAt t r) q := by
  obtain ⟨-, -, -, -, -, -, -, -, -, -, -, e0, e1⟩ := idx_facts t
  refine funext fun a => Fin.ext ?_
  match a with
  | ⟨0, _⟩ => show win2_5.index t (0 : Fin 2) * 5000 + 1 * r.val = t.val * 5000 + r.val; rw [e0]; omega
  | ⟨1, _⟩ => show win2_5.index t (1 : Fin 2) * 128 + 1 * q.val = q.val; rw [e1]; omega

/-- WHAT POINT t WRITES BACK is block t of the dense layer of the arrays the region finds. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  show k2_pay1 (F := Ideal) (iblk2 V c 0 t) (iblk2 V c 1 t) (iblk2 V c 2 t) (iblk2 V c 3 t) (iblk2 V c 4 t) (ix2 r q)
    = G V c (((cfg2.win 5).blk t).view.emb (ix2 r q))
  rw [emb_out t r q]
  refine (k2_pay (iblk2 V c 0 t) (iblk2 V c 1 t) (iblk2 V c 2 t) (iblk2 V c 3 t) (iblk2 V c 4 t) r q).trans ?_
  show _ = Cert.Dense.sageAt (V c main_v40) (V c main_v28) (V c main_arg8) (rowOf (V c main_v41)) (V c main_arg10) (rowAt t r) q
  rw [show (iblk2 V c 2 t : Vec Ideal S128x128 .f32) = V c main_arg8 from funext (blk_wl V c t),
    show (iblk2 V c 3 t : Vec Ideal S1x128 .f32) = V c main_v41 from funext (blk_b V c t),
    show (iblk2 V c 4 t : Vec Ideal S128x128 .f32) = V c main_arg10 from funext (blk_wr V c t)]
  exact Cert.Dense.sageAt_rows _ _ _ _ _ _ _ r (rowAt t r) (fun k => blk_agg V c t r k) (fun k => blk_h V c t r k) q

/-- An index of the array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v42).slice (win2_5.rect t)).set ↔ _
  rw [View.set_slice_whole, Rect.mem_set_unit]
  exact Iff.rfl

/-- Every block row is SOME point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- The ten blocks tile the array: row i lies in block i / 5000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY after region 2: the dense layer of the arrays the region finds. -/
theorem final (c : Dev nD) : (dat2 V c).arrAt 5 cfg2.N = G V c :=
  (dat2 V c).arrAt_eq_of_cover 5 (G V c) (fun t _ => flushed_eq V c t) cover

end Cert.KernelIdeal.Region2

end
-- ==== Proof.Region3.lean ====
/-
  Region 3 (the pooled read-out). Its grid has one point, which reads every operand whole and writes the whole result: the array
  after the region is the read-out of the arrays the region finds.
-/
import proofs.«158993_j2508260901292_1_alg».proof.Proof.Gen.KernelIdeal.Frame
import proofs.«158993_j2508260901292_1_alg».proof.Proof.KernelPay

set_option maxRecDepth 16384

noncomputable section

namespace Cert.KernelIdeal.Region3

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one point: every window is fetched, and the result written back, whole. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- What the region's result holds: the read-out of the arrays the region finds. -/
abbrev G (c : Dev nD) : S256x1.Idx → Elt Ideal .f32 :=
  Cert.Dense.mlp (V c main_v54) (V c main_arg11) (rowOf (V c main_v55)) (V c main_arg13) (rowOf (V c main_v56)) (V c main_arg15)
    (rowOf (V c main_v57))

theorem blk_0 (c : Dev nD) (t : Fin cfg3.N) (y : S256x128.Idx) : iblk3 V c 0 t y = V c main_v54 y := by
  obtain ⟨e0, e1, -⟩ := idx_facts t
  show V c main_v54 (((cfg3.win 0).blk t).view.emb y) = V c main_v54 y
  refine congrArg _ (funext fun a => Fin.ext ?_)
  match a with
  | ⟨0, _⟩ => show win3_0.index t (0 : Fin 2) * 256 + 1 * (y 0).val = (y 0).val; rw [e0]; omega
  | ⟨1, _⟩ => show win3_0.index t (1 : Fin 2) * 128 + 1 * (y 1).val = (y 1).val; rw [e1]; omega

theorem blk_1 (c : Dev nD) (t : Fin cfg3.N) (y : S128x128.Idx) : iblk3 V c 1 t y = V c main_arg11 y := by
  obtain ⟨-, -, e0, e1, -⟩ := idx_facts t
  show V c main_arg11 (((cfg3.win 1).blk t).view.emb y) = V c main_arg11 y
  refine congrArg _ (funext fun a => Fin.ext ?_)
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

theorem blk_2 (c : Dev nD) (t : Fin cfg3.N) (y : S1x128.Idx) : iblk3 V c 2 t y = V c main_v55 y := by
  obtain ⟨-, -, -, -, e0, e1, -⟩ := idx_facts t
  show V c main_v55 (((cfg3.win 2).blk t).view.emb y) = V c main_v55 y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

theorem blk_3 (c : Dev nD) (t : Fin cfg3.N) (y : S128x64.Idx) : iblk3 V c 3 t y = V c main_arg13 y := by
  obtain ⟨-, -, -, -, -, -, e0, e1, -⟩ := idx_facts t
  show V c main_arg13 (((cfg3.win 3).blk t).view.emb y) = V c main_arg13 y
  refine congrArg _ (funext fun a => Fin.ext ?_)
  match a with
  | ⟨0, _⟩ => show win3_3.index t (0 : Fin 2) * 128 + 1 * (y 0).val = (y 0).val; rw [e0]; omega
  | ⟨1, _⟩ => show win3_3.index t (1 : Fin 2) * 64 + 1 * (y 1).val = (y 1).val; rw [e1]; omega

theorem blk_4 (c : Dev nD) (t : Fin cfg3.N) (y : S1x64.Idx) : iblk3 V c 4 t y = V c main_v56 y := by
  obtain ⟨-, -, -, -, -, -, -, -, e0, e1, -⟩ := idx_facts t
  show V c main_v56 (((cfg3.win 4).blk t).view.emb y) = V c main_v56 y
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

theorem blk_5 (c : Dev nD) (t : Fin cfg3.N) (y : S64x1.Idx) : iblk3 V c 5 t y = V c main_arg15 y := by
  obtain ⟨-, -, -, -, -, -, -, -, -, -, e0, e1, -⟩ := idx_facts t
  show V c main_arg15 (((cfg3.win 5).blk t).view.emb y) = V c main_arg15 y
  refine congrArg _ (funext fun a => Fin.ext ?_)
  match a with
  | ⟨0, _⟩ => show win3_5.index t (0 : Fin 2) * 64 + 1 * (y 0).val = (y 0).val; rw [e0]; omega
  | ⟨1, _⟩ => show win3_5.index t (1 : Fin 2) * 1 + 1 * (y 1).val = (y 1).val; rw [e1]; omega

theorem blk_6 (c : Dev nD) (t : Fin cfg3.N) (y : S1x1.Idx) : iblk3 V c 6 t y = V c main_v57 y := by
  obtain ⟨-, -, -, -, -, -, -, -, -, -, -, -, e0, e1, -⟩ := idx_facts t
  show V c main_v57 (((cfg3.win 6).blk t).view.emb y) = V c main_v57 y
  refine congrArg _ (funext fun a => Fin.ext ?_)
  match a with
  | ⟨0, _⟩ => show win3_6.index t (0 : Fin 2) * 1 + 1 * (y 0).val = (y 0).val; rw [e0]; omega
  | ⟨1, _⟩ => show win3_6.index t (1 : Fin 2) * 1 + 1 * (y 1).val = (y 1).val; rw [e1]; omega

theorem emb_out (t : Fin cfg3.N) (y : S256x1.Idx) : ((cfg3.win 7).blk t).view.emb y = y := by
  obtain ⟨-, -, -, -, -, -, -, -, -, -, -, -, -, -, e0, e1⟩ := idx_facts t
  refine funext fun a => Fin.ext ?_
  match a with
  | ⟨0, _⟩ => show win3_7.index t (0 : Fin 2) * 256 + 1 * (y 0).val = (y 0).val; rw [e0]; omega
  | ⟨1, _⟩ => show win3_7.index t (1 : Fin 2) * 1 + 1 * (y 1).val = (y 1).val; rw [e1]; omega

/-- WHAT THE POINT WRITES BACK is the read-out of the arrays the region finds. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S256x128) hz, View.ld_unit_zero (S := S128x128) hz, View.ld_unit_zero (S := S1x128) hz,
    View.ld_unit_zero (S := S128x64) hz, View.ld_unit_zero (S := S1x64) hz, View.ld_unit_zero (S := S64x1) hz,
    View.ld_unit_zero (S := S1x1) hz]
  funext j
  obtain ⟨r, q, rfl⟩ : ∃ (r : Fin 256) (q : Fin 1), j = ix2 r q := ⟨j 0, j 1, eq_ix2 j⟩
  show k3_pay1 (F := Ideal) (iblk3 V c 0 t) (iblk3 V c 1 t) (iblk3 V c 2 t) (iblk3 V c 3 t) (iblk3 V c 4 t) (iblk3 V c 5 t) (iblk3 V c 6 t) (ix2 r q)
    = G V c (((cfg3.win 7).blk t).view.emb (ix2 r q))
  rw [emb_out t (ix2 r q)]
  refine (k3_pay (iblk3 V c 0 t) (iblk3 V c 1 t) (iblk3 V c 2 t) (iblk3 V c 3 t) (iblk3 V c 4 t) (iblk3 V c 5 t) (iblk3 V c 6 t) r q).trans ?_
  rw [show (iblk3 V c 0 t : Vec Ideal S256x128 .f32) = V c main_v54 from funext (blk_0 V c t),
    show (iblk3 V c 1 t : Vec Ideal S128x128 .f32) = V c main_arg11 from funext (blk_1 V c t),
    show (iblk3 V c 2 t : Vec Ideal S1x128 .f32) = V c main_v55 from funext (blk_2 V c t),
    show (iblk3 V c 3 t : Vec Ideal S128x64 .f32) = V c main_arg13 from funext (blk_3 V c t),
    show (iblk3 V c 4 t : Vec Ideal S1x64 .f32) = V c main_v56 from funext (blk_4 V c t),
    show (iblk3 V c 5 t : Vec Ideal S64x1 .f32) = V c main_arg15 from funext (blk_5 V c t),
    show (iblk3 V c 6 t : Vec Ideal S1x1 .f32) = V c main_v57 from funext (blk_6 V c t)]

/-- An index of the array is in the point's block iff each coordinate is in the block's range on its axis. -/
theorem mem_blk (t : Fin cfg3.N) (i : S256x1.Idx) :
    i ∈ ((cfg3.win 7).blk t).view.set ↔ ∀ a : Fin 2, win3_7.index t a * S256x1.size a ≤ (i a).val ∧ (i a).val < win3_7.index t a * S256x1.size a + S256x1.size a := by
  show i ∈ ((View.whole main_v58).slice (win3_7.rect t)).set ↔ _
  rw [View.set_slice_whole, Rect.mem_set_unit]
  exact Iff.rfl

/-- The one block is the whole array. -/
theorem cover (i : S256x1.Idx) : ∃ t : Fin cfg3.N, (cfg3.win 7).flush t = true ∧ i ∈ ((cfg3.win 7).blk t).view.set := by
  have hi0 : (i 0).val < 256 := (i 0).isLt
  have hi1 : (i 1).val < 1 := (i 1).isLt
  have t : Fin cfg3.N := ⟨0, by decide⟩
  obtain ⟨-, -, -, -, -, -, -, -, -, -, -, -, -, -, e0, e1⟩ := idx_facts t
  refine ⟨t, flush3_7 t, ?_⟩
  rw [mem_blk]
  intro a
  match a with
  | ⟨0, _⟩ => show win3_7.index t (0 : Fin 2) * 256 ≤ (i 0).val ∧ (i 0).val < win3_7.index t (0 : Fin 2) * 256 + 256; omega
  | ⟨1, _⟩ => show win3_7.index t (1 : Fin 2) * 1 ≤ (i 1).val ∧ (i 1).val < win3_7.index t (1 : Fin 2) * 1 + 1; omega

/-- THE ARRAY after region 3: the read-out of the arrays the region finds. -/
theorem final (c : Dev nD) : (dat3 V c).arrAt 7 cfg3.N = G V c :=
  (dat3 V c).arrAt_eq_of_cover 7 (G V c) (fun t _ => flushed_eq V c t) cover

end Cert.KernelIdeal.Region3

end
-- ==== Proof.Net.lean ====
/-
  The whole network as one function of its inputs, over the extended reals, with the two irregular steps (the mean over in-neighbours
  and the mean over a graph's nodes) left as parameters: projection, two neighbourhood layers each fed by the aggregate of the layer
  before, pooling, read-out.
-/
import proofs.«158993_j2508260901292_1_alg».proof.Proof.Spec

noncomputable section

namespace Cert.Dense

/-- The network: `agg` is the neighbourhood mean of a feature array, `pool` the per-graph mean. -/
def net (agg : Mat 50000 128 → Mat 50000 128) (pool : Mat 50000 128 → Mat 256 128)
    (x : Mat 50000 5) (Wp : Mat 5 128) (bp : Fin 128 → EReal)
    (W1l : Mat 128 128) (b1 : Fin 128 → EReal) (W1r : Mat 128 128)
    (W2l : Mat 128 128) (b2 : Fin 128 → EReal) (W2r : Mat 128 128)
    (Wq1 : Mat 128 128) (bq1 : Fin 128 → EReal) (Wq2 : Mat 128 64) (bq2 : Fin 64 → EReal) (Wo : Mat 64 1) (bo : Fin 1 → EReal) :
    Mat 256 1 :=
  mlp (pool (sage (agg (sage (agg (proj x Wp bp)) (proj x Wp bp) W1l b1 W1r)) (sage (agg (proj x Wp bp)) (proj x Wp bp) W1l b1 W1r) W2l b2 W2r))
    Wq1 bq1 Wq2 bq2 Wo bo

end Cert.Dense

end
-- ==== Proof.KernelValue.lean ====
/-
  The kernel program's result as the network function of its inputs.

  The buffers' contents at each boundary of the run are read back to the launch memory: an argument no segment writes holds its
  launch contents at every boundary; the edge endpoints and the reciprocal degree are made by the first host stretch and kept
  afterwards; each region's result array is the dense stage of what the region finds (the region posts), and each later host
  stretch applies the neighbourhood mean, or the per-graph mean, to it. Composed, the last region's result is the network function.
-/
import proofs.«158993_j2508260901292_1_alg».proof.Proof.Keeps
import proofs.«158993_j2508260901292_1_alg».proof.Proof.KernelHost
import proofs.«158993_j2508260901292_1_alg».proof.Proof.Region0
import proofs.«158993_j2508260901292_1_alg».proof.Proof.Region1
import proofs.«158993_j2508260901292_1_alg».proof.Proof.Region2
import proofs.«158993_j2508260901292_1_alg».proof.Proof.Region3
import proofs.«158993_j2508260901292_1_alg».proof.Proof.Net

set_option maxRecDepth 16384

noncomputable section

namespace Cert.KernelIdeal.Chain

open Cert.KernelIdeal Cert.KernelIdeal.Gen Cert.KernelIdeal.Keeps Cert.KernelIdeal.Host Cert.KernelIdeal.Pay
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-! ## A buffer no segment writes holds its launch contents at every boundary -/

theorem W0_eq (c : Dev nD) (b : Ref sig .tc) : W0 m ρ c (Proc.devRef .tc b) = m ((c : Thread nD τ).loc b) := rfl

theorem W1_arg (c : Dev nD) (b : Ref sig .tc) (h0 : b ∉ wr0) : W1 m ρ c (Proc.devRef .tc b) = m ((c : Thread nD τ).loc b) :=
  (keepH0 m ρ c b h0).trans (W0_eq m ρ c b)
theorem W2_arg (c : Dev nD) (b : Ref sig .tc) (h0 : b ∉ wr0) (r0 : b ≠ main_v14) :
    W2 m ρ c (Proc.devRef .tc b) = m ((c : Thread nD τ).loc b) :=
  (keepR0 m ρ c b r0).trans (W1_arg m ρ c b h0)
theorem W3_arg (c : Dev nD) (b : Ref sig .tc) (h0 : b ∉ wr0) (r0 : b ≠ main_v14) (h1 : b ∉ wr1) :
    W3 m ρ c (Proc.devRef .tc b) = m ((c : Thread nD τ).loc b) :=
  (keepH1 m ρ c b h1).trans (W2_arg m ρ c b h0 r0)
theorem W4_arg (c : Dev nD) (b : Ref sig .tc) (h0 : b ∉ wr0) (r0 : b ≠ main_v14) (h1 : b ∉ wr1) (r1 : b ≠ main_v28) :
    W4 m ρ c (Proc.devRef .tc b) = m ((c : Thread nD τ).loc b) :=
  (keepR1 m ρ c b r1).trans (W3_arg m ρ c b h0 r0 h1)
theorem W5_arg (c : Dev nD) (b : Ref sig .tc) (h0 : b ∉ wr0) (r0 : b ≠ main_v14) (h1 : b ∉ wr1) (r1 : b ≠ main_v28) (h2 : b ∉ wr2) :
    W5 m ρ c (Proc.devRef .tc b) = m ((c : Thread nD τ).loc b) :=
  (keepH2 m ρ c b h2).trans (W4_arg m ρ c b h0 r0 h1 r1)
theorem W6_arg (c : Dev nD) (b : Ref sig .tc) (h0 : b ∉ wr0) (r0 : b ≠ main_v14) (h1 : b ∉ wr1) (r1 : b ≠ main_v28) (h2 : b ∉ wr2)
    (r2 : b ≠ main_v42) : W6 m ρ c (Proc.devRef .tc b) = m ((c : Thread nD τ).loc b) :=
  (keepR2 m ρ c b r2).trans (W5_arg m ρ c b h0 r0 h1 r1 h2)
theorem W7_arg (c : Dev nD) (b : Ref sig .tc) (h0 : b ∉ wr0) (r0 : b ≠ main_v14) (h1 : b ∉ wr1) (r1 : b ≠ main_v28) (h2 : b ∉ wr2)
    (r2 : b ≠ main_v42) (h3 : b ∉ wr3) : W7 m ρ c (Proc.devRef .tc b) = m ((c : Thread nD τ).loc b) :=
  (keepH3 m ρ c b h3).trans (W6_arg m ρ c b h0 r0 h1 r1 h2 r2)

/-! ## The stages -/

/-- The edge endpoints and the reciprocal clamped in-degree, of the launch contents of the edge list. -/
abbrev srcK (c : Dev nD) := srcOf (F := Ideal) (m ((c : Thread nD τ).loc main_arg1))
abbrev dstK (c : Dev nD) := dstOf (F := Ideal) (m ((c : Thread nD τ).loc main_arg1))
abbrev dinvK (c : Dev nD) := dinvOf (F := Ideal) (dstK m c)

/-- The mean over in-neighbours of a feature array, and the mean over each graph's nodes. -/
abbrev aggK (c : Dev nD) (h : Cert.Dense.Mat 50000 128) : Cert.Dense.Mat 50000 128 := aggOf (F := Ideal) h (srcK m c) (dstK m c) (dinvK m c)
abbrev poolK (c : Dev nD) (h : Cert.Dense.Mat 50000 128) : Cert.Dense.Mat 256 128 :=
  poolOf (F := Ideal) h (m ((c : Thread nD τ).loc main_arg2))

/-- The features after the projection and after each neighbourhood layer. -/
def feat0 (c : Dev nD) : Cert.Dense.Mat 50000 128 :=
  Cert.Dense.proj (m ((c : Thread nD τ).loc main_arg0)) (m ((c : Thread nD τ).loc main_arg3))
    (rowOf (row128 (F := Ideal) (m ((c : Thread nD τ).loc main_arg4))))
def feat1 (c : Dev nD) : Cert.Dense.Mat 50000 128 :=
  Cert.Dense.sage (aggK m c (feat0 m c)) (feat0 m c) (m ((c : Thread nD τ).loc main_arg5))
    (rowOf (row128 (F := Ideal) (m ((c : Thread nD τ).loc main_arg6)))) (m ((c : Thread nD τ).loc main_arg7))
def feat2 (c : Dev nD) : Cert.Dense.Mat 50000 128 :=
  Cert.Dense.sage (aggK m c (feat1 m c)) (feat1 m c) (m ((c : Thread nD τ).loc main_arg8))
    (rowOf (row128 (F := Ideal) (m ((c : Thread nD τ).loc main_arg9)))) (m ((c : Thread nD τ).loc main_arg10))

/-! ## Region 0 and what follows it -/

theorem W1_v13 (c : Dev nD) : W1 m ρ c (Proc.devRef .tc main_v13) = row128 (F := Ideal) (m ((c : Thread nD τ).loc main_arg4)) :=
  h0_v13 (W0 m ρ c)

theorem W2_v14 (c : Dev nD) : W2 m ρ c (Proc.devRef .tc main_v14) = feat0 m c := by
  refine (W2_arr m ρ c 3).trans ((Region0.final (V1 m ρ) c).trans ?_)
  show Cert.Dense.proj (W1 m ρ c (Proc.devRef .tc main_arg0)) (W1 m ρ c (Proc.devRef .tc main_arg3))
    (rowOf (W1 m ρ c (Proc.devRef .tc main_v13))) = _
  rw [W1_arg m ρ c main_arg0 (by decide), W1_arg m ρ c main_arg3 (by decide), W1_v13 m ρ c]
  rfl

theorem W2_v1 (c : Dev nD) : W2 m ρ c (Proc.devRef .tc main_v1) = srcK m c :=
  (keepR0 m ρ c main_v1 (by decide)).trans (h0_v1 (W0 m ρ c))
theorem W2_v3 (c : Dev nD) : W2 m ρ c (Proc.devRef .tc main_v3) = dstK m c :=
  (keepR0 m ρ c main_v3 (by decide)).trans (h0_v3 (W0 m ρ c))
theorem W2_v12 (c : Dev nD) : W2 m ρ c (Proc.devRef .tc main_v12) = dinvK m c :=
  (keepR0 m ρ c main_v12 (by decide)).trans (h0_v12 (W0 m ρ c))

theorem W3_v26 (c : Dev nD) : W3 m ρ c (Proc.devRef .tc main_v26) = aggK m c (feat0 m c) := by
  refine (h1_v26 (W2 m ρ c)).trans ?_
  rw [W2_v14 m ρ c, W2_v1 m ρ c, W2_v3 m ρ c, W2_v12 m ρ c]
theorem W3_v14 (c : Dev nD) : W3 m ρ c (Proc.devRef .tc main_v14) = feat0 m c :=
  (keepH1 m ρ c main_v14 (by decide)).trans (W2_v14 m ρ c)
theorem W3_v27 (c : Dev nD) : W3 m ρ c (Proc.devRef .tc main_v27) = row128 (F := Ideal) (m ((c : Thread nD τ).loc main_arg6)) := by
  refine (h1_v27 (W2 m ρ c)).trans ?_
  rw [W2_arg m ρ c main_arg6 (by decide) (by decide)]

/-! ## Region 1 and what follows it -/

theorem W4_v28 (c : Dev nD) : W4 m ρ c (Proc.devRef .tc main_v28) = feat1 m c := by
  refine (W4_arr m ρ c 5).trans ((Region1.final (V3 m ρ) c).trans ?_)
  show Cert.Dense.sage (W3 m ρ c (Proc.devRef .tc main_v26)) (W3 m ρ c (Proc.devRef .tc main_v14)) (W3 m ρ c (Proc.devRef .tc main_arg5))
    (rowOf (W3 m ρ c (Proc.devRef .tc main_v27))) (W3 m ρ c (Proc.devRef .tc main_arg7)) = _
  rw [W3_v26 m ρ c, W3_v14 m ρ c, W3_v27 m ρ c, W3_arg m ρ c main_arg5 (by decide) (by decide) (by decide),
    W3_arg m ρ c main_arg7 (by decide) (by decide) (by decide)]
  rfl

theorem W4_v1 (c : Dev nD) : W4 m ρ c (Proc.devRef .tc main_v1) = srcK m c :=
  (keepR1 m ρ c main_v1 (by decide)).trans ((keepH1 m ρ c main_v1 (by decide)).trans (W2_v1 m ρ c))
theorem W4_v3 (c : Dev nD) : W4 m ρ c (Proc.devRef .tc main_v3) = dstK m c :=
  (keepR1 m ρ c main_v3 (by decide)).trans ((keepH1 m ρ c main_v3 (by decide)).trans (W2_v3 m ρ c))
theorem W4_v12 (c : Dev nD) : W4 m ρ c (Proc.devRef .tc main_v12) = dinvK m c :=
  (keepR1 m ρ c main_v12 (by decide)).trans ((keepH1 m ρ c main_v12 (by decide)).trans (W2_v12 m ρ c))

theorem W5_v40 (c : Dev nD) : W5 m ρ c (Proc.devRef .tc main_v40) = aggK m c (feat1 m c) := by
  refine (h2_v40 (W4 m ρ c)).trans ?_
  rw [W4_v28 m ρ c, W4_v1 m ρ c, W4_v3 m ρ c, W4_v12 m ρ c]
theorem W5_v28 (c : Dev nD) : W5 m ρ c (Proc.devRef .tc main_v28) = feat1 m c :=
  (keepH2 m ρ c main_v28 (by decide)).trans (W4_v28 m ρ c)
theorem W5_v41 (c : Dev nD) : W5 m ρ c (Proc.devRef .tc main_v41) = row128 (F := Ideal) (m ((c : Thread nD τ).loc main_arg9)) := by
  refine (h2_v41 (W4 m ρ c)).trans ?_
  rw [W4_arg m ρ c main_arg9 (by decide) (by decide) (by decide) (by decide)]

/-! ## Region 2 and what follows it -/

theorem W6_v42 (c : Dev nD) : W6 m ρ c (Proc.devRef .tc main_v42) = feat2 m c := by
  refine (W6_arr m ρ c 5).trans ((Region2.final (V5 m ρ) c).trans ?_)
  show Cert.Dense.sage (W5 m ρ c (Proc.devRef .tc main_v40)) (W5 m ρ c (Proc.devRef .tc main_v28)) (W5 m ρ c (Proc.devRef .tc main_arg8))
    (rowOf (W5 m ρ c (Proc.devRef .tc main_v41))) (W5 m ρ c (Proc.devRef .tc main_arg10)) = _
  rw [W5_v40 m ρ c, W5_v28 m ρ c, W5_v41 m ρ c,
    W5_arg m ρ c main_arg8 (by decide) (by decide) (by decide) (by decide) (by decide),
    W5_arg m ρ c main_arg10 (by decide) (by decide) (by decide) (by decide) (by decide)]
  rfl

theorem W7_v54 (c : Dev nD) : W7 m ρ c (Proc.devRef .tc main_v54) = poolK m c (feat2 m c) := by
  refine (h3_v54 (W6 m ρ c)).trans ?_
  rw [W6_v42 m ρ c, W6_arg m ρ c main_arg2 (by decide) (by decide) (by decide) (by decide) (by decide) (by decide)]
theorem W7_v55 (c : Dev nD) : W7 m ρ c (Proc.devRef .tc main_v55) = row128 (F := Ideal) (m ((c : Thread nD τ).loc main_arg12)) := by
  refine (h3_v55 (W6 m ρ c)).trans ?_
  rw [W6_arg m ρ c main_arg12 (by decide) (by decide) (by decide) (by decide) (by decide) (by decide)]
theorem W7_v56 (c : Dev nD) : W7 m ρ c (Proc.devRef .tc main_v56) = row64 (F := Ideal) (m ((c : Thread nD τ).loc main_arg14)) := by
  refine (h3_v56 (W6 m ρ c)).trans ?_
  rw [W6_arg m ρ c main_arg14 (by decide) (by decide) (by decide) (by decide) (by decide) (by decide)]
theorem W7_v57 (c : Dev nD) : W7 m ρ c (Proc.devRef .tc main_v57) = row1 (F := Ideal) (m ((c : Thread nD τ).loc main_arg16)) := by
  refine (h3_v57 (W6 m ρ c)).trans ?_
  rw [W6_arg m ρ c main_arg16 (by decide) (by decide) (by decide) (by decide) (by decide) (by decide)]

/-! ## Region 3: the result -/

/-- THE RESULT of the kernel program at the last boundary: the network function of the launch contents of its arguments. -/
theorem W8_v58 (c : Dev nD) : W8 m ρ c (Proc.devRef .tc main_v58)
    = Cert.Dense.net (aggK m c) (poolK m c)
        (m ((c : Thread nD τ).loc main_arg0)) (m ((c : Thread nD τ).loc main_arg3)) (rowOf (row128 (F := Ideal) (m ((c : Thread nD τ).loc main_arg4))))
        (m ((c : Thread nD τ).loc main_arg5)) (rowOf (row128 (F := Ideal) (m ((c : Thread nD τ).loc main_arg6)))) (m ((c : Thread nD τ).loc main_arg7))
        (m ((c : Thread nD τ).loc main_arg8)) (rowOf (row128 (F := Ideal) (m ((c : Thread nD τ).loc main_arg9)))) (m ((c : Thread nD τ).loc main_arg10))
        (m ((c : Thread nD τ).loc main_arg11)) (rowOf (row128 (F := Ideal) (m ((c : Thread nD τ).loc main_arg12))))
        (m ((c : Thread nD τ).loc main_arg13)) (rowOf (row64 (F := Ideal) (m ((c : Thread nD τ).loc main_arg14))))
        (m ((c : Thread nD τ).loc main_arg15)) (rowOf (row1 (F := Ideal) (m ((c : Thread nD τ).loc main_arg16)))) := by
  refine (W8_arr m ρ c 7).trans ((Region3.final (V7 m ρ) c).trans ?_)
  show Cert.Dense.mlp (W7 m ρ c (Proc.devRef .tc main_v54)) (W7 m ρ c (Proc.devRef .tc main_arg11)) (rowOf (W7 m ρ c (Proc.devRef .tc main_v55)))
    (W7 m ρ c (Proc.devRef .tc main_arg13)) (rowOf (W7 m ρ c (Proc.devRef .tc main_v56))) (W7 m ρ c (Proc.devRef .tc main_arg15))
    (rowOf (W7 m ρ c (Proc.devRef .tc main_v57))) = _
  rw [W7_v54 m ρ c, W7_v55 m ρ c, W7_v56 m ρ c, W7_v57 m ρ c,
    W7_arg m ρ c main_arg11 (by decide) (by decide) (by decide) (by decide) (by decide) (by decide) (by decide),
    W7_arg m ρ c main_arg13 (by decide) (by decide) (by decide) (by decide) (by decide) (by decide) (by decide),
    W7_arg m ρ c main_arg15 (by decide) (by decide) (by decide) (by decide) (by decide) (by decide) (by decide)]
  rfl

end Cert.KernelIdeal.Chain

end
-- ==== Proof.RefDense.lean ====
/-
  The reference's dense stages as whole-array functions of their operands, and each read entry by entry over the extended reals.
-/
import proofs.«158993_j2508260901292_1_alg».proof.Proof.Gen.ReferenceIdeal
import proofs.«158993_j2508260901292_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDense

open Idealize.ShloMosaic Idealize.ShloMosaic.ValueIdx Cert.ReferenceIdeal Cert.ReferenceIdeal.Gen

variable {F : FTy → Type} [FloatOps F]

/-- A rank-one array as a function of its one coordinate. -/
abbrev vecOf {N : Nat} (b : (⟨1, ![N]⟩ : Shape).Idx → EReal) : Fin N → EReal := fun c => b (ix1 c)

/-- relu (x W + b): the operations of the reference's input projection. -/
def refProj (x : FVec F S50000x5 .f32) (W : FVec F S5x128 .f32) (b : FVec F S128 .f32) : FVec F S50000x128 .f32 :=
  maximumf
    (addf (Host.dotGeneral dot_S50000x5_S5x128_S50000x128_1_0_0_1_n_n none x W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- relu (u / max (sqrt (sum u^2)) eps), u = agg W_l + b + h W_r: the operations of the reference's neighbourhood layer. -/
def refSage (agg h : FVec F S50000x128 .f32) (Wl : FVec F S128x128 .f32) (b : FVec F S128 .f32) (Wr : FVec F S128x128 .f32) :
    FVec F S50000x128 .f32 :=
  let u : FVec F S50000x128 .f32 :=
    addf
      (addf (Host.dotGeneral dot_S50000x128_S128x128_S50000x128_1_0_0_1_n_n none agg Wl)
        (broadcastInDim S50000x128 ![0, 1] bcast_S1x128_S50000x128_0_1 (broadcastInDim S1x128 ![1] bcast_S128_S1x128_1 b)))
      (Host.dotGeneral dot_S50000x128_S128x128_S50000x128_1_0_0_1_n_n none h Wr)
  maximumf
    (Host.divf u
      (broadcastInDim S50000x128 ![0, 1] bcast_S50000x1_S50000x128_0_1
        (maximumf
          (Host.sqrt (broadcastInDim S50000x1 ![0] bcast_S50000_S50000x1_0
            (Host.reduceAdd (mulf u u) (constant S_ .f32 0x00000000#32) reducesTo_S50000x128_S50000_d1 h_S_)))
          (broadcastInDim S50000x1 ![] bcast_S_S50000x1 (constant S_ .f32 0x2B8CBCCC#32)))))
    (broadcastInDim S50000x128 ![] bcast_S_S50000x128 (constant S_ .f32 0x00000000#32))

/-- The operations of the reference's pooled read-out. -/
def refMlp (g : FVec F S256x128 .f32) (W1 : FVec F S128x128 .f32) (b1 : FVec F S128 .f32) (W2 : FVec F S128x64 .f32) (b2 : FVec F S64 .f32)
    (W3 : FVec F S64x1 .f32) (b3 : FVec F S1 .f32) : FVec F S256x1 .f32 :=
  addf
    (Host.dotGeneral dot_S256x64_S64x1_S256x1_1_0_0_1_n_n none
      (maximumf
        (addf
          (Host.dotGeneral dot_S256x128_S128x64_S256x64_1_0_0_1_n_n none
            (maximumf
              (addf (Host.dotGeneral dot_S256x128_S128x128_S256x128_1_0_0_1_n_n none g W1)
                (broadcastInDim S256x128 ![0, 1] bcast_S1x128_S256x128_0_1 (broadcastInDim S1x128 ![1] bcast_S128_S1x128_1 b1)))
              (broadcastInDim S256x128 ![] bcast_S_S256x128 (constant S_ .f32 0x00000000#32)))
            W2)
          (broadcastInDim S256x64 ![0, 1] bcast_S1x64_S256x64_0_1 (broadcastInDim S1x64 ![1] bcast_S64_S1x64_1 b2)))
        (broadcastInDim S256x64 ![] bcast_S_S256x64 (constant S_ .f32 0x00000000#32)))
      W3)
    (broadcastInDim S256x1 ![0, 1] bcast_S1x1_S256x1_0_1 (broadcastInDim S1x1 ![1] bcast_S1_S1x1_1 b3))

/-! ## The operations read at an index -/

/-- A plain M x K by K x N product on the host, read at (r, c): the sum over k of lhs (r, k) * rhs (k, c). The contraction
    index, an index of a rank-one shape, is carried to Fin K; the operand indices at (r, c) and k are (r, k) and (k, c)
    coordinate by coordinate. -/
theorem dotGeneral_plain_apply (M K N : Nat) (lhs : FVec Ideal ⟨2, ![M, K]⟩ .f32) (rhs : FVec Ideal ⟨2, ![K, N]⟩ .f32)
    (r : Fin M) (c : Fin N) :
    Host.dotGeneral (DotDims.plain M K N) none lhs rhs (ix2 r c) = ∑ k : Fin K, lhs (ix2 r k) * rhs (ix2 k c) := by
  simp only [Host.dotGeneral]
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A bias of N entries made a one-row array and then repeated down M rows, read at (r, c): entry c of the bias. -/
theorem bias_apply {α : Type} (M N : Nat) (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (c : Fin N) :
    broadcastInDim ⟨2, ![M, N]⟩ ![0, 1] h2 (broadcastInDim ⟨2, ![1, N]⟩ ![1] h1 b) (ix2 r c) = b (ix1 c) := by
  have hc : c.val = if N = 1 then 0 else c.val := by
    by_cases hN : N = 1
    · rw [if_pos hN]; have := c.isLt; omega
    · rw [if_neg hN]
  rw [broadcastInDim_apply _ h2 _ (ix2 r c) (ix2 ⟨0, Nat.one_pos⟩ c) (fun a => match a with
    | ⟨0, _⟩ => by show (0 : Nat) = if (1 : Nat) = 1 then 0 else r.val; rw [if_pos rfl]
    | ⟨1, _⟩ => hc)]
  exact broadcastInDim_apply _ h1 b _ (ix1 c) (fun a => match a with
    | ⟨0, _⟩ => hc)

/-- A rank-zero constant repeated over any shape, read anywhere: the constant's word. -/
theorem splat_apply (t : Shape) (h : S_.BroadcastsInDim t (![] : Fin 0 → Fin t.rank)) (w : BitVec 32) (j : t.Idx) :
    broadcastInDim t ![] h (constant (F := Ideal) S_ .f32 w) j = Ideal.ofBits .f32 w :=
  broadcastInDim_apply _ h _ j (fun a => a.elim0) (fun a => a.elim0)

/-- The host's sum along the rows of a 50000 x 128 array from the zero word, read at r: the sum over k of the entry (r, k). -/
theorem rowSum_apply (x : FVec Ideal S50000x128 .f32) (r : Fin 50000) :
    Host.reduceAdd x (constant (F := Ideal) S_ .f32 0x00000000#32) reducesTo_S50000x128_S50000_d1 h_S_ (ix1 r)
      = ∑ k : Fin 128, x (ix2 r k) := by
  simp only [Host.reduceAdd, Ideal.hostReduceAdd_def]
  rw [Ideal.hostReduceAdd_single reducesTo_S50000x128_S50000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The host's division and square root are entry by entry, and over the extended reals the ideal ones. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

/-- A 50000-vector made a one-column array, read at (r, 0): entry r. -/
theorem column_apply {α : Type} (y : S50000.Idx → α) (r : Fin 50000) (z : Fin 1) :
    broadcastInDim S50000x1 ![0] bcast_S50000_S50000x1_0 y (ix2 r z) = y (ix1 r) :=
  broadcastInDim_apply _ bcast_S50000_S50000x1_0 y (ix2 r z) (ix1 r) (fun a => match a with
    | ⟨0, _⟩ => by show r.val = if (50000 : Nat) = 1 then 0 else r.val; rw [if_neg (by decide)])

/-- A one-column array repeated along 128 columns, read at (r, c): the column's entry r. -/
theorem columns_apply {α : Type} (y : S50000x1.Idx → α) (r : Fin 50000) (c : Fin 128) :
    broadcastInDim S50000x128 ![0, 1] bcast_S50000x1_S50000x128_0_1 y (ix2 r c) = y (ix2 r ⟨0, Nat.one_pos⟩) :=
  broadcastInDim_apply _ bcast_S50000x1_S50000x128_0_1 y (ix2 r c) (ix2 r ⟨0, Nat.one_pos⟩) (fun a => match a with
    | ⟨0, _⟩ => by show r.val = if (50000 : Nat) = 1 then 0 else r.val; rw [if_neg (by decide)]
    | ⟨1, _⟩ => by show (0 : Nat) = if (1 : Nat) = 1 then 0 else c.val; rw [if_pos rfl])

/-! ## The affine layers in host operations -/

/-- An affine layer in host operations (a plain product plus the repeated bias), read at (r, c): the specification's entry. -/
theorem hostAffine_apply (M K N : Nat) (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (c : Fin N) :
    addf (Host.dotGeneral (DotDims.plain M K N) none x W)
        (broadcastInDim ⟨2, ![M, N]⟩ ![0, 1] h2 (broadcastInDim ⟨2, ![1, N]⟩ ![1] h1 b)) (ix2 r c)
      = Cert.Dense.affineAt x W (vecOf b) r c := by
  rw [addf_apply, bias_apply M N b h1 h2 r c, dotGeneral_plain_apply M K N x W r c]
  rfl

/-- The affine layer in host operations, as an array: the specification's entries. -/
theorem hostAffine_eq (M K N : Nat) (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral (DotDims.plain M K N) none x W)
        (broadcastInDim ⟨2, ![M, N]⟩ ![0, 1] h2 (broadcastInDim ⟨2, ![1, N]⟩ ![1] h1 b))
      = Cert.Dense.ofAt (Cert.Dense.affineAt x W (vecOf b)) := by
  funext i
  obtain ⟨r, c, rfl⟩ : ∃ (r : Fin M) (c : Fin N), i = ix2 r c := ⟨i 0, i 1, eq_ix2 i⟩
  exact hostAffine_apply M K N x W b h1 h2 r c

/-- The clamped affine layer in host operations (the affine layer, then the maximum with the repeated zero word), as an
    array: the specification's input projection at these sizes. -/
theorem hostProj_eq (M K N : Nat) (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : S_.BroadcastsInDim ⟨2, ![M, N]⟩ (![] : Fin 0 → Fin 2)) :
    maximumf
        (addf (Host.dotGeneral (DotDims.plain M K N) none x W)
          (broadcastInDim ⟨2, ![M, N]⟩ ![0, 1] h2 (broadcastInDim ⟨2, ![1, N]⟩ ![1] h1 b)))
        (broadcastInDim ⟨2, ![M, N]⟩ ![] h0 (constant (F := Ideal) S_ .f32 0x00000000#32))
      = Cert.Dense.proj x W (vecOf b) := by
  funext i
  obtain ⟨r, c, rfl⟩ : ∃ (r : Fin M) (c : Fin N), i = ix2 r c := ⟨i 0, i 1, eq_ix2 i⟩
  rw [maximumf_apply, hostAffine_apply M K N x W b h1 h2 r c, splat_apply]
  rfl

/-- Over the extended reals the input projection is the dense stage, entry by entry. -/
theorem refProj_eq (x : FVec Ideal S50000x5 .f32) (W : FVec Ideal S5x128 .f32) (b : FVec Ideal S128 .f32) :
    refProj (F := Ideal) x W b = Cert.Dense.proj x W (vecOf b) :=
  hostProj_eq 50000 5 128 x W b bcast_S128_S1x128_1 bcast_S1x128_S50000x128_0_1 bcast_S_S50000x128

/-! ## The neighbourhood layer in host operations -/

/-- The neighbourhood layer's sum u in host operations (two plain products, the repeated bias added to the first), read at
    (r, c): the specification's u (r, c). -/
theorem hostSagePre_apply (agg h : FVec Ideal S50000x128 .f32) (Wl : FVec Ideal S128x128 .f32) (b : FVec Ideal S128 .f32)
    (Wr : FVec Ideal S128x128 .f32) (r : Fin 50000) (c : Fin 128) :
    addf
        (addf (Host.dotGeneral dot_S50000x128_S128x128_S50000x128_1_0_0_1_n_n none agg Wl)
          (broadcastInDim S50000x128 ![0, 1] bcast_S1x128_S50000x128_0_1 (broadcastInDim S1x128 ![1] bcast_S128_S1x128_1 b)))
        (Host.dotGeneral dot_S50000x128_S128x128_S50000x128_1_0_0_1_n_n none h Wr) (ix2 r c)
      = Cert.Dense.sagePreAt agg h Wl (vecOf b) Wr r c := by
  rw [show dot_S50000x128_S128x128_S50000x128_1_0_0_1_n_n = DotDims.plain 50000 128 128 from rfl]
  rw [addf_apply, hostAffine_apply 50000 128 128 agg Wl b bcast_S128_S1x128_1 bcast_S1x128_S50000x128_0_1 r c,
    dotGeneral_plain_apply 50000 128 128 h Wr r c]
  rfl

/-- The row normalisation in host operations applied to any array u, read at (r, c): u (r, c) divided by the row's length
    (the square root of the sum over k of u (r, k)^2, floored at the eps word), clamped below at the zero word. The divisor
    is a one-column array repeated along the columns; the column is the maximum of the square root of the row sums, made a
    column, and the repeated eps word. -/
theorem hostNormalize_apply (u : FVec Ideal S50000x128 .f32) (r : Fin 50000) (c : Fin 128) :
    maximumf
        (Host.divf u
          (broadcastInDim S50000x128 ![0, 1] bcast_S50000x1_S50000x128_0_1
            (maximumf
              (Host.sqrt (broadcastInDim S50000x1 ![0] bcast_S50000_S50000x1_0
                (Host.reduceAdd (mulf u u) (constant (F := Ideal) S_ .f32 0x00000000#32) reducesTo_S50000x128_S50000_d1 h_S_)))
              (broadcastInDim S50000x1 ![] bcast_S_S50000x1 (constant (F := Ideal) S_ .f32 0x2B8CBCCC#32)))))
        (broadcastInDim S50000x128 ![] bcast_S_S50000x128 (constant (F := Ideal) S_ .f32 0x00000000#32)) (ix2 r c)
      = max (Ideal.div (u (ix2 r c)) (max (Ideal.sqrt (∑ k : Fin 128, u (ix2 r k) * u (ix2 r k))) Cert.Dense.epsW)) Cert.Dense.zeroW := by
  rw [maximumf_apply, splat_apply, hostDivf_apply, columns_apply, maximumf_apply, splat_apply, hostSqrt_apply, column_apply,
    rowSum_apply]
  rfl

/-- Over the extended reals the neighbourhood layer is the dense stage, entry by entry. -/
theorem refSage_eq (agg h : FVec Ideal S50000x128 .f32) (Wl : FVec Ideal S128x128 .f32) (b : FVec Ideal S128 .f32) (Wr : FVec Ideal S128x128 .f32) :
    refSage (F := Ideal) agg h Wl b Wr = Cert.Dense.sage agg h Wl (vecOf b) Wr := by
  funext i
  obtain ⟨r, c, rfl⟩ : ∃ (r : Fin 50000) (c : Fin 128), i = ix2 r c := ⟨i 0, i 1, eq_ix2 i⟩
  refine (hostNormalize_apply _ r c).trans ?_
  rw [hostSagePre_apply agg h Wl b Wr r c,
    Finset.sum_congr rfl fun k _ => by rw [hostSagePre_apply agg h Wl b Wr r k]]
  rfl

/-- Over the extended reals the pooled read-out is the dense stage, entry by entry. -/
theorem refMlp_eq (g : FVec Ideal S256x128 .f32) (W1 : FVec Ideal S128x128 .f32) (b1 : FVec Ideal S128 .f32) (W2 : FVec Ideal S128x64 .f32)
    (b2 : FVec Ideal S64 .f32) (W3 : FVec Ideal S64x1 .f32) (b3 : FVec Ideal S1 .f32) :
    refMlp (F := Ideal) g W1 b1 W2 b2 W3 b3 = Cert.Dense.mlp g W1 (vecOf b1) W2 (vecOf b2) W3 (vecOf b3) := by
  unfold refMlp
  rw [show dot_S256x128_S128x128_S256x128_1_0_0_1_n_n = DotDims.plain 256 128 128 from rfl,
    show dot_S256x128_S128x64_S256x64_1_0_0_1_n_n = DotDims.plain 256 128 64 from rfl,
    show dot_S256x64_S64x1_S256x1_1_0_0_1_n_n = DotDims.plain 256 64 1 from rfl]
  rw [hostProj_eq 256 128 128 g W1 b1 bcast_S128_S1x128_1 bcast_S1x128_S256x128_0_1 bcast_S_S256x128,
    hostProj_eq 256 128 64 _ W2 b2 bcast_S64_S1x64_1 bcast_S1x64_S256x64_0_1 bcast_S_S256x64,
    hostAffine_eq 256 64 1 _ W3 b3 bcast_S1_S1x1_1 bcast_S1x1_S256x1_0_1]
  rfl

end Cert.ReferenceIdeal.RefDense

end
-- ==== Proof.RefStages.lean ====
/-
  The reference's composed result is the network function of its inputs: its dense stages are the specification's (entry by
  entry over the extended reals), and its two irregular steps are named here as functions of a feature array and the index input.
-/
import proofs.«158993_j2508260901292_1_alg».proof.Proof.Gen.ReferenceIdeal.Run
import proofs.«158993_j2508260901292_1_alg».proof.Proof.Gen.ReferenceIdeal.Read
import proofs.«158993_j2508260901292_1_alg».proof.Proof.RefDense
import proofs.«158993_j2508260901292_1_alg».proof.Proof.Net

noncomputable section

namespace Cert.ReferenceIdeal.RefStages

open Cert.ReferenceIdeal Cert.ReferenceIdeal.Gen Cert.ReferenceIdeal.Read Cert.ReferenceIdeal.RefDense
open Idealize.ShloMosaic Idealize.ShloMosaic.TcCoe Idealize.SL.Sem Idealize.ShloMosaic.StableHlo

variable {F : FTy → Type} [FloatOps F]

/-- The mean over in-neighbours of a feature array h: rows of h gathered at the (wrapped) sources, added onto the destinations,
    scaled by the reciprocal clamped in-degree; the index preparation is the reference's own stages of the edge list x1. -/
def hostAgg (h : FVec F S50000x128 .f32) (x1 : (⟨S2x600000, .i32⟩ : BufTy).Contents (Elt F)) : FVec F S50000x128 .f32 :=
  mulf
    (Host.scatterAdd scatter_S50000x128_S600000x1_S600000x128_1_0_0_1 (val_main_v25 (F := F)) (val_main_v26 (F := F) x1)
      (Host.gather gather_S50000x128_S600000x1_S600000x128_1_0_n_n_0_1_1128 h (val_main_v23 (F := F) x1)))
    (val_main_v28 (F := F) x1)

/-- The mean over each graph's nodes of a feature array h; the counts are the reference's own stages of the graph ids x2. -/
def hostPool (h : FVec F S50000x128 .f32) (x2 : (⟨S50000, .i32⟩ : BufTy).Contents (Elt F)) : FVec F S256x128 .f32 :=
  Host.divf (Host.scatterAdd scatter_S256x128_S50000x1_S50000x128_1_0_0_1 (val_main_v72 (F := F)) (val_main_v73 (F := F) x2) h)
    (val_main_v82 (F := F) x2)

/-! ## The reference's stages, from the inside out

Each equation unfolds one level of the reference's own stage functions: both sides are the same composition of the same
operations applied to the same operands. -/

section Stages

variable (x0 : (⟨S50000x5, .f32⟩ : BufTy).Contents (Elt F)) (x1 : (⟨S2x600000, .i32⟩ : BufTy).Contents (Elt F))
  (x2 : (⟨S50000, .i32⟩ : BufTy).Contents (Elt F)) (x3 : (⟨S5x128, .f32⟩ : BufTy).Contents (Elt F))
  (x4 : (⟨S128, .f32⟩ : BufTy).Contents (Elt F)) (x5 : (⟨S128x128, .f32⟩ : BufTy).Contents (Elt F))
  (x6 : (⟨S128, .f32⟩ : BufTy).Contents (Elt F)) (x7 x8 : (⟨S128x128, .f32⟩ : BufTy).Contents (Elt F))
  (x9 : (⟨S128, .f32⟩ : BufTy).Contents (Elt F)) (x10 x11 : (⟨S128x128, .f32⟩ : BufTy).Contents (Elt F))
  (x12 : (⟨S128, .f32⟩ : BufTy).Contents (Elt F)) (x13 : (⟨S128x64, .f32⟩ : BufTy).Contents (Elt F))
  (x14 : (⟨S64, .f32⟩ : BufTy).Contents (Elt F)) (x15 : (⟨S64x1, .f32⟩ : BufTy).Contents (Elt F))
  (x16 : (⟨S1, .f32⟩ : BufTy).Contents (Elt F))

/-- The first layer's output is the input projection of the features. -/
theorem v17_eq : val_main_v17 (F := F) x0 x3 x4 = refProj x0 x3 x4 := by
  unfold val_main_v17 val_main_v16 val_main_v13 val_main_v15 val_main_v14 val_main_call0_v0 val_main_call0_cst refProj
  rfl

/-- The first aggregate is the neighbourhood mean of the first layer's output. -/
theorem v29_eq : val_main_v29 (F := F) x0 x1 x3 x4 = hostAgg (val_main_v17 (F := F) x0 x3 x4) x1 := by
  unfold val_main_v29 val_main_v27 val_main_v24 hostAgg
  rfl

/-- The second layer's output is the neighbourhood layer of the first aggregate and the first layer's output. -/
theorem v44_eq :
    val_main_v44 (F := F) x0 x1 x3 x4 x5 x6 x7
      = refSage (val_main_v29 (F := F) x0 x1 x3 x4) (val_main_v17 (F := F) x0 x3 x4) x5 x6 x7 := by
  unfold val_main_v44 val_main_v43 val_main_v42 val_main_v41 val_main_v39 val_main_v38 val_main_v37 val_main_v36 val_main_v35
    val_main_v33 val_main_v34 val_main_v30 val_main_v32 val_main_v31 val_main_v40 val_main_cst_5 val_main_cst_6
    val_main_call1_v0 val_main_call1_cst refSage
  rfl

/-- The index preparation the reference makes again before the second aggregate is the first one's: the wrapped sources,
    the zero array added onto, the destinations, the reciprocal clamped in-degree. -/
theorem v50_eq : val_main_v50 (F := F) x1 = val_main_v23 (F := F) x1 := by
  unfold val_main_v50 val_main_v49 val_main_v46 val_main_v45 val_main_v48 val_main_v47 val_main_c_7 val_main_c_8
    val_main_v23 val_main_v22 val_main_v19 val_main_v18 val_main_v21 val_main_v20 val_main_c val_main_c_3
  rfl
theorem v52_eq : val_main_v52 (F := F) = val_main_v25 (F := F) := by
  unfold val_main_v52 val_main_cst_9 val_main_v25 val_main_cst_4
  rfl
theorem v53_eq : val_main_v53 (F := F) x1 = val_main_v26 (F := F) x1 := by
  unfold val_main_v53 val_main_v26
  rfl
theorem v55_eq : val_main_v55 (F := F) x1 = val_main_v28 (F := F) x1 := by
  unfold val_main_v55 val_main_v28
  rfl

/-- The second aggregate is the neighbourhood mean of the second layer's output. -/
theorem v56_eq :
    val_main_v56 (F := F) x0 x1 x3 x4 x5 x6 x7 = hostAgg (val_main_v44 (F := F) x0 x1 x3 x4 x5 x6 x7) x1 := by
  unfold val_main_v56 val_main_v54 val_main_v51 hostAgg
  rw [v50_eq, v52_eq, v53_eq, v55_eq]

/-- The third layer's output is the neighbourhood layer of the second aggregate and the second layer's output. -/
theorem v71_eq :
    val_main_v71 (F := F) x0 x1 x3 x4 x5 x6 x7 x8 x9 x10
      = refSage (val_main_v56 (F := F) x0 x1 x3 x4 x5 x6 x7) (val_main_v44 (F := F) x0 x1 x3 x4 x5 x6 x7) x8 x9 x10 := by
  unfold val_main_v71 val_main_v70 val_main_v69 val_main_v68 val_main_v66 val_main_v65 val_main_v64 val_main_v63 val_main_v62
    val_main_v60 val_main_v61 val_main_v57 val_main_v59 val_main_v58 val_main_v67 val_main_cst_10 val_main_cst_11
    val_main_call2_v0 val_main_call2_cst refSage
  rfl

/-- The pooled array is the per-graph mean of the third layer's output. -/
theorem v83_eq :
    val_main_v83 (F := F) x0 x1 x2 x3 x4 x5 x6 x7 x8 x9 x10
      = hostPool (val_main_v71 (F := F) x0 x1 x3 x4 x5 x6 x7 x8 x9 x10) x2 := by
  unfold val_main_v83 val_main_v74 hostPool
  rfl

/-- The result is the pooled read-out of the pooled array. -/
theorem v97_eq :
    val_main_v97 (F := F) x0 x1 x2 x3 x4 x5 x6 x7 x8 x9 x10 x11 x12 x13 x14 x15 x16
      = refMlp (val_main_v83 (F := F) x0 x1 x2 x3 x4 x5 x6 x7 x8 x9 x10) x11 x12 x13 x14 x15 x16 := by
  unfold val_main_v97 val_main_v94 val_main_v96 val_main_v95 val_main_v93 val_main_v92 val_main_v89 val_main_v91 val_main_v90
    val_main_v88 val_main_v87 val_main_v84 val_main_v86 val_main_v85 val_main_call3_v0 val_main_call3_cst val_main_call4_v0
    val_main_call4_cst refMlp
  rfl

end Stages

/-- The reference's result, over the extended reals, is the network function of the launch contents of its arguments. -/
theorem res_eq_net (m : (ℓ : Loc nD τ sig) → Buf (Elt Ideal) ℓ) (c : Dev nD) :
    Cert.ReferenceIdeal.Value.res_main_v97 (F := Ideal) m c
      = Cert.Dense.net
          (fun h => hostAgg (F := Ideal) h (m ((c.tc : Thread nD τ).loc main_arg1)))
          (fun h => hostPool (F := Ideal) h (m ((c.tc : Thread nD τ).loc main_arg2)))
          (m ((c.tc : Thread nD τ).loc main_arg0)) (m ((c.tc : Thread nD τ).loc main_arg3)) (vecOf (m ((c.tc : Thread nD τ).loc main_arg4)))
          (m ((c.tc : Thread nD τ).loc main_arg5)) (vecOf (m ((c.tc : Thread nD τ).loc main_arg6))) (m ((c.tc : Thread nD τ).loc main_arg7))
          (m ((c.tc : Thread nD τ).loc main_arg8)) (vecOf (m ((c.tc : Thread nD τ).loc main_arg9))) (m ((c.tc : Thread nD τ).loc main_arg10))
          (m ((c.tc : Thread nD τ).loc main_arg11)) (vecOf (m ((c.tc : Thread nD τ).loc main_arg12)))
          (m ((c.tc : Thread nD τ).loc main_arg13)) (vecOf (m ((c.tc : Thread nD τ).loc main_arg14)))
          (m ((c.tc : Thread nD τ).loc main_arg15)) (vecOf (m ((c.tc : Thread nD τ).loc main_arg16))) := by
  rw [Read.val_main_v97_eq, v97_eq, v83_eq, v71_eq, v56_eq, v44_eq, v29_eq, v17_eq]
  rw [refMlp_eq, refSage_eq, refSage_eq, refProj_eq]
  rfl

end Cert.ReferenceIdeal.RefStages

end
-- ==== Proof.Bridge.lean ====
/-
  The two programs' irregular steps are the same functions, and a bias vector recast as a one-row array reads, in its one row, as
  the vector.

  Both programs print the neighbourhood mean and the per-graph mean with the same operations on the same operands (the scatter,
  gather and broadcast dimension records of the two programs have the same fields), so the two readings agree by unfolding.
-/
import proofs.«158993_j2508260901292_1_alg».proof.Proof.KernelHost
import proofs.«158993_j2508260901292_1_alg».proof.Proof.KernelPay
import proofs.«158993_j2508260901292_1_alg».proof.Proof.RefStages
import Idealize.ShloMosaic.Lib.Pipeline.Value
import Idealize.ShloMosaic.Lib.ValueIdx

noncomputable section

namespace Cert.Bridge

open Idealize.ShloMosaic Idealize.ShloMosaic.ValueIdx

/-- A vector recast as a one-row array, read at (0, c): the vector at c. -/
theorem row_read {N : Nat} (b : (⟨1, ![N]⟩ : Shape).Idx → EReal) (h : (⟨1, ![N]⟩ : Shape).ShapeCasts ⟨2, ![1, N]⟩) (c : Fin N) :
    shapeCast ⟨2, ![1, N]⟩ b h (ix2 ⟨0, Nat.one_pos⟩ c) = b (ix1 c) :=
  shapeCast_apply b h (ix2 ⟨0, Nat.one_pos⟩ c) (ix1 c) (by
    rw [Shape.rowMajor_val_one, Shape.rowMajor_val_two]
    show c.val = 0 * N + c.val
    omega)

theorem rowOf_row128 (b : FVec Ideal Cert.KernelIdeal.S128 .f32) :
    Cert.KernelIdeal.Pay.rowOf (Cert.KernelIdeal.Host.row128 (F := Ideal) b) = Cert.ReferenceIdeal.RefDense.vecOf b :=
  funext fun c => row_read b _ c

theorem rowOf_row64 (b : FVec Ideal Cert.KernelIdeal.S64 .f32) :
    Cert.KernelIdeal.Pay.rowOf (Cert.KernelIdeal.Host.row64 (F := Ideal) b) = Cert.ReferenceIdeal.RefDense.vecOf b :=
  funext fun c => row_read b _ c

theorem rowOf_row1 (b : FVec Ideal Cert.KernelIdeal.S1 .f32) :
    Cert.KernelIdeal.Pay.rowOf (Cert.KernelIdeal.Host.row1 (F := Ideal) b) = Cert.ReferenceIdeal.RefDense.vecOf b :=
  funext fun c => row_read b _ c

open Cert.ReferenceIdeal.Read in
/-- The neighbourhood mean: the reference's reading is the kernel program's. -/
theorem agg_eq (h : FVec Ideal Cert.KernelIdeal.S50000x128 .f32) (e : (⟨Cert.KernelIdeal.S2x600000, .i32⟩ : BufTy).Contents (Elt Ideal)) :
    Cert.ReferenceIdeal.RefStages.hostAgg (F := Ideal) h e
      = Cert.KernelIdeal.Host.aggOf (F := Ideal) h (Cert.KernelIdeal.Host.srcOf e) (Cert.KernelIdeal.Host.dstOf e)
          (Cert.KernelIdeal.Host.dinvOf (Cert.KernelIdeal.Host.dstOf e)) := by
  unfold Cert.ReferenceIdeal.RefStages.hostAgg Cert.KernelIdeal.Host.aggOf Cert.KernelIdeal.Host.srcOf Cert.KernelIdeal.Host.dstOf
    Cert.KernelIdeal.Host.dinvOf
  unfold val_main_v25 val_main_v26 val_main_v23 val_main_v28 val_main_cst_4 val_main_v3 val_main_v2 val_main_v22 val_main_v19 val_main_v21
    val_main_v18 val_main_v20 val_main_c val_main_c_3 val_main_v1 val_main_v0 val_main_v12 val_main_v11 val_main_v10 val_main_v9 val_main_cst_2
    val_main_v7 val_main_v8 val_main_v5 val_main_v6 val_main_v4 val_main_cst_0 val_main_cst val_main_cst_1 val_main_v3 val_main_v2
  rfl

open Cert.ReferenceIdeal.Read in
/-- The per-graph mean: the reference's reading is the kernel program's. -/
theorem pool_eq (h : FVec Ideal Cert.KernelIdeal.S50000x128 .f32) (e : (⟨Cert.KernelIdeal.S50000, .i32⟩ : BufTy).Contents (Elt Ideal)) :
    Cert.ReferenceIdeal.RefStages.hostPool (F := Ideal) h e = Cert.KernelIdeal.Host.poolOf (F := Ideal) h e := by
  unfold Cert.ReferenceIdeal.RefStages.hostPool Cert.KernelIdeal.Host.poolOf
  unfold val_main_v72 val_main_v73 val_main_v82 val_main_cst_12 val_main_v81 val_main_v80 val_main_v78 val_main_v79 val_main_v76 val_main_v77
    val_main_v75 val_main_cst_14 val_main_cst_13 val_main_cst_15
  rfl

end Cert.Bridge

end
-- ==== Proof.lean ====
/-
  The certificate of a two-layer mean-aggregating graph network (an input projection, two neighbourhood layers with row-wise
  normalisation, a per-graph mean and a three-layer read-out) whose dense node-wise and graph-wise stages run as four tiled kernels,
  against the same network written with whole-array operations.

  Over the extended reals a change of float format is the identity and a matrix product into the zero accumulator is the plain sum,
  so each kernel's block of rows is the same function of the same rows of its operands as the reference's dense stage, and the
  blocks tile the rows: each region leaves the reference's stage of what it finds. The irregular steps between them (gathering
  neighbours' rows, adding them onto their destinations, the degree and node counts) are the same operations on both sides. Hence
  both programs end with the network function of their inputs, and from agreeing inputs with equal results. No entry needs to be
  finite for this: only the tiling and the order of the sums differ. The three frames are the generated frame certificates and the
  reference's generated run; the idealization changed nothing that needs a statement.
-/
import proofs.«158993_j2508260901292_1_alg».proof.Defs
import proofs.«158993_j2508260901292_1_alg».proof.Proof.Gen.Kernel
import proofs.«158993_j2508260901292_1_alg».proof.Proof.Gen.Kernel.Skeleton
import proofs.«158993_j2508260901292_1_alg».proof.Proof.Gen.Kernel.Launch
import proofs.«158993_j2508260901292_1_alg».proof.Proof.Gen.Kernel.Points
import proofs.«158993_j2508260901292_1_alg».proof.Proof.Gen.Kernel.Frame
import proofs.«158993_j2508260901292_1_alg».proof.Proof.Gen.KernelIdeal
import proofs.«158993_j2508260901292_1_alg».proof.Proof.Gen.KernelIdeal.Skeleton
import proofs.«158993_j2508260901292_1_alg».proof.Proof.Gen.KernelIdeal.Launch
import proofs.«158993_j2508260901292_1_alg».proof.Proof.Gen.KernelIdeal.Points
import proofs.«158993_j2508260901292_1_alg».proof.Proof.Gen.KernelIdeal.Frame
import proofs.«158993_j2508260901292_1_alg».proof.Proof.Gen.ReferenceIdeal
import proofs.«158993_j2508260901292_1_alg».proof.Proof.Gen.ReferenceIdeal.Run
import proofs.«158993_j2508260901292_1_alg».proof.Proof.Gen.ReferenceIdeal.Read
import proofs.«158993_j2508260901292_1_alg».proof.Proof.Gen.Pre_finite_inputs
import proofs.«158993_j2508260901292_1_alg».proof.Proof.KernelRun
import proofs.«158993_j2508260901292_1_alg».proof.Proof.KernelValue
import proofs.«158993_j2508260901292_1_alg».proof.Proof.RefStages
import proofs.«158993_j2508260901292_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program's frame: generated. -/
theorem frame_k : Cert.frame_Kernel := fun m ρ _ => Cert.Kernel.Gen.frame m ρ

/-- The idealized kernel program's frame: generated. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From agreeing inputs both programs end with the network function of those inputs: the kernel program by its run with the
    result named and the chain of region posts, the reference by its generated run read stage by stage; the irregular steps and the
    bias rows agree by the bridge. -/
theorem algebraic : Cert.algebraic_KernelIdeal_ReferenceIdeal := by
  intro m ρ m' ρ' _ hagree
  refine ⟨fun c => _, (θ_run Cert.KernelIdeal.defs _ _).mono
    (fun r h c => ⟨(h c).1.trans (Cert.KernelIdeal.Chain.W8_v58 m ρ c), (h c).2⟩) (Cert.KernelIdeal.Named.run_named m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.RefStages.res_eq_net m' c, a0, a1, a2, a3, a4, a5, a6, a7, a8, a9, a10, a11, a12, a13, a14, a15, a16]
  simp only [Cert.Bridge.rowOf_row128, Cert.Bridge.rowOf_row64, Cert.Bridge.rowOf_row1]
  rw [funext fun h => Cert.Bridge.agg_eq h (m ((c.tc : Thread Cert.KernelIdeal.nD Cert.KernelIdeal.τ).loc Cert.KernelIdeal.main_arg1)),
    funext fun h => Cert.Bridge.pool_eq h (m ((c.tc : Thread Cert.KernelIdeal.nD Cert.KernelIdeal.τ).loc Cert.KernelIdeal.main_arg2))]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
